-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S32x64 : Shape := ⟨2, ![32, 64]⟩
abbrev S128x8 : Shape := ⟨2, ![128, 8]⟩
abbrev S8x128x128 : Shape := ⟨3, ![8, 128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x64 : S_.BroadcastsInDim S32x64 (![] : Fin 0 → Fin S32x64.rank)
  reducesTo_S32x64_S_d0_1 : S32x64.ReducesTo [0, 1] S_
  bcast_S_S128x8 : S_.BroadcastsInDim S128x8 (![] : Fin 0 → Fin S128x8.rank)
  reducesTo_S128x8_S_d0_1 : S128x8.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x800000 32) (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 0#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg1
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_v58 main_v68

def fn_part2 {F : FTy → Type} [FloatOps F] (main_arg1 : IVec S2x800000 32) (main_arg8 : FVec F S128 .f32) (main_arg9 : FVec F S128x64 .f32) (main_arg10 : FVec F S64 .f32) (main_arg11 : FVec F S128x64 .f32) (main_arg12 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg1 main_arg12 main_v48 main_v49 main_v50

def fn_part1 {F : FTy → Type} [FloatOps F] (main_arg1 : IVec S2x800000 32) (main_arg5 : FVec F S32x64 .f32) (main_arg6 : FVec F S128x8 .f32) (main_arg7 : FVec F S8x128x128 .f32) (main_arg8 : FVec F S128 .f32) (main_arg9 : FVec F S128x64 .f32) (main_arg10 : FVec F S64 .f32) (main_arg11 : FVec F S128x64 .f32) (main_arg12 : FVec F S64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8x128x128 .f32 := Host.absf main_arg7
  let main_cst_10 : FVec F S_ .f32 := constant S_ .f32 0x7F800000#32
  let main_v30 : FVec F S8x128x128 .f32 := broadcastInDim S8x128x128 ![] bcast_S_S8x128x128 main_cst_10
  let main_v31 : IVec S8x128x128 1 := cmpf .olt main_v29 main_v30
  let main_c_11 : IVec S_ 1 := constantI S_ 1 1#1
  let main_v32 : IVec S_ 1 := (fun x v => Host.reduce IntOp.andi x v reducesTo_S8x128x128_S_d0_1_2 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x800000 32) (main_arg2 : FVec F S800000x32 .f32) (main_arg3 : FVec F S32x64 .f32) (main_arg4 : FVec F S32x64 .f32) (main_arg5 : FVec F S32x64 .f32) (main_arg6 : FVec F S128x8 .f32) (main_arg7 : FVec F S8x128x128 .f32) (main_arg8 : FVec F S128 .f32) (main_arg9 : FVec F S128x64 .f32) (main_arg10 : FVec F S64 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S32x64 : Shape := ⟨2, ![32, 64]⟩
abbrev S128x8 : Shape := ⟨2, ![128, 8]⟩
abbrev S8x128x128 : Shape := ⟨3, ![8, 128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S64x8 : Shape := ⟨2, ![64, 8]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S8000x32 : Shape := ⟨2, ![8000, 32]⟩
abbrev S8000x128 : Shape := ⟨2, ![8000, 128]⟩
abbrev S8000x64 : Shape := ⟨2, ![8000, 64]⟩
abbrev S8000x8 : Shape := ⟨2, ![8000, 8]⟩
abbrev S1x128x128 : Shape := ⟨3, ![1, 128, 128]⟩
abbrev S128x128 : Shape := ⟨2, ![128, 128]⟩
abbrev S8000x1 : Shape := ⟨2, ![8000, 1]⟩
abbrev S1x128 : Shape := ⟨2, ![1, 128]⟩
abbrev S1x64 : Shape := ⟨2, ![1, 64]⟩
abbrev S50000x192 : Shape := ⟨2, ![50000, 192]⟩
abbrev S10000x128 : Shape := ⟨2, ![10000, 128]⟩
abbrev S10000x192 : Shape := ⟨2, ![10000, 192]⟩
abbrev S10000x64 : Shape := ⟨2, ![10000, 64]⟩

abbrev nBuf : Space → Nat
  | .hbm => 51
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S32x64, .f32⟩
  | .hbm, ⟨4, _⟩ => ⟨S32x64, .f32⟩
  | .hbm, ⟨5, _⟩ => ⟨S32x64, .f32⟩
  | .hbm, ⟨6, _⟩ => ⟨S128x8, .f32⟩
  | .hbm, ⟨7, _⟩ => ⟨S8x128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S64x8, .f32⟩
  | .hbm, ⟨18, _⟩ => ⟨S64x8, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x128, .f32⟩
  | .hbm, ⟨38, _⟩ => ⟨S800000x128, .i1⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S1x64, .f32⟩
  | .hbm, ⟨49, _⟩ => ⟨S1x64, .f32⟩
  | .hbm, ⟨50, _⟩ => ⟨S50000x192, .f32⟩
  | .local _ .vmem, ⟨0, _⟩ => ⟨S8000x32, .f32⟩
  | .local _ .vmem, ⟨1, _⟩ => ⟨S8000x32, .f32⟩
  | .local _ .vmem, ⟨2, _⟩ => ⟨S8000x128, .f32⟩
  | .local _ .vmem, ⟨3, _⟩ => ⟨S8000x128, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S64x8, .f32⟩
  | .local _ .vmem, ⟨8, _⟩ => ⟨S64x8, .f32⟩
  | .local _ .vmem, ⟨9, _⟩ => ⟨S8x128x128, .f32⟩
  | .local _ .vmem, ⟨10, _⟩ => ⟨S8000x128, .f32⟩
  | .local _ .vmem, ⟨11, _⟩ => ⟨S8000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S1x64, .f32⟩
  | .local _ .vmem, ⟨21, _⟩ => ⟨S10000x192, .f32⟩
  | .local _ .vmem, ⟨22, _⟩ => ⟨S10000x192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_v7 : Ref sig .tc := ⟨.hbm, 42, rfl⟩
abbrev main_cst : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S128x8_S64x8_0_0 : S128x8.Slices ![0, 0] S64x8
  slices_S128x8_S64x8_64_0 : S128x8.Slices ![64, 0] S64x8
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  slices_S8000x8_o0_0_S8000x1 : S8000x8.Slices ![0, 0] S8000x1
  broadcasts_S8000x1_S8000x128 : S8000x1.Broadcasts S8000x128
  inb_S8x128x128_S1x128x128_1_0_0 : ∀ a, (![1, 0, 0] : Fin 3 → Nat) a + S1x128x128.size a ≤ S8x128x128.size a
  slices_S8000x8_o0_1_S8000x1 : S8000x8.Slices ![0, 1] S8000x1
  inb_S8x128x128_S1x128x128_2_0_0 : ∀ a, (![2, 0, 0] : Fin 3 → Nat) a + S1x128x128.size a ≤ S8x128x128.size a
  slices_S8000x8_o0_2_S8000x1 : S8000x8.Slices ![0, 2] S8000x1
  inb_S8x128x128_S1x128x128_3_0_0 : ∀ a, (![3, 0, 0] : Fin 3 → Nat) a + S1x128x128.size a ≤ S8x128x128.size a
  slices_S8000x8_o0_3_S8000x1 : S8000x8.Slices ![0, 3] S8000x1
  inb_S8x128x128_S1x128x128_4_0_0 : ∀ a, (![4, 0, 0] : Fin 3 → Nat) a + S1x128x128.size a ≤ S8x128x128.size a
  slices_S8000x8_o0_4_S8000x1 : S8000x8.Slices ![0, 4] S8000x1
  inb_S8x128x128_S1x128x128_5_0_0 : ∀ a, (![5, 0, 0] : Fin 3 → Nat) a + S1x128x128.size a ≤ S8x128x128.size a
  slices_S8000x8_o0_5_S8000x1 : S8000x8.Slices ![0, 5] S8000x1
  inb_S8x128x128_S1x128x128_6_0_0 : ∀ a, (![6, 0, 0] : Fin 3 → Nat) a + S1x128x128.size a ≤ S8x128x128.size a
  slices_S8000x8_o0_6_S8000x1 : S8000x8.Slices ![0, 6] S8000x1
  inb_S8x128x128_S1x128x128_7_0_0 : ∀ a, (![7, 0, 0] : Fin 3 → Nat) a + S1x128x128.size a ≤ S8x128x128.size a
  slices_S8000x8_o0_7_S8000x1 : S8000x8.Slices ![0, 7] S8000x1
  bcast_S_S50000x128 : S_.BroadcastsInDim S50000x128 (![] : Fin 0 → Fin S50000x128.rank)
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x192_S10000x128_0_0 : ∀ a, (![0, 0] : Fin 2 → Nat) a + S10000x128.size a ≤ S10000x192.size a
  inb_S10000x192_S10000x64_0_128 : ∀ a, (![0, 128] : Fin 2 → Nat) a + S10000x64.size a ≤ S10000x192.size a
  h_S10000x64 : 0 < S10000x64.numel
  gather_S50000x128_S800000x1_S800000x128_1_0_n_n_0_1_1128_wf : GatherDims.WF S50000x128 S800000x1 S800000x128 [1] [0] [] [0] [] 1 ![1, 128]
  dot_S8000x32_S32x64_S8000x64_1_0_0_1_n_n_wf : DotDims.WF S8000x32 S32x64 S8000x64 [1] [0] [0] [1] [] []
  dot_S8000x64_S64x8_S8000x8_1_0_0_1_n_n_wf : DotDims.WF S8000x64 S64x8 S8000x8 [1] [0] [0] [1] [] []
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S64x8.size a
  hwx0_5 : ∀ i : grid0.Coords, EltTy.bits .f32 = 32 ∨ (Rect.block (s := S64x8) S64x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x8.size a ≤ S64x8.size a
  hwx0_6 : ∀ i : grid0.Coords, EltTy.bits .f32 = 32 ∨ (Rect.block (s := S64x8) S64x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128x128.size a ≤ S8x128x128.size a
  hwx0_7 : ∀ i : grid0.Coords, EltTy.bits .f32 = 32 ∨ (Rect.block (s := S8x128x128) S8x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x128.size a ≤ S800000x128.size a
  hwx0_8 : ∀ i : grid0.Coords, EltTy.bits .f32 = 32 ∨ (Rect.block (s := S800000x128) S8000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x192.size a ≤ S50000x192.size a
  hwx1_7 : ∀ i : grid1.Coords, EltTy.bits .f32 = 32 ∨ (Rect.block (s := S50000x192) S10000x192.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x8_S8000x8_1_0_0_1_n_n : DotDims S8000x64 S64x8 S8000x8 where
  lhsContracting := [1]
  rhsContracting := [0]
  lhsNonContracting := [0]
  rhsNonContracting := [1]
  lhsBatch := []
  rhsBatch := []
  wf := dot_S8000x64_S64x8_S8000x8_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg2) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S8000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S10000x192.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S32x64 : Shape := ⟨2, ![32, 64]⟩
abbrev S128x8 : Shape := ⟨2, ![128, 8]⟩
abbrev S8x128x128 : Shape := ⟨3, ![8, 128, 128]⟩
abbrev S128 : Shape := ⟨1, ![128]⟩
abbrev S128x64 : Shape := ⟨2, ![128, 64]⟩
abbrev S64 : Shape := ⟨1, ![64]⟩
abbrev S800000x64 : Shape := ⟨2, ![800000, 64]⟩
abbrev S_ : Shape := ⟨0, ![]⟩
abbrev S800000x128 : Shape := ⟨2, ![800000, 128]⟩
abbrev S800000x8 : Shape := ⟨2, ![800000, 8]⟩
abbrev S1x800000 : Shape := ⟨2, ![1, 800000]⟩
abbrev S800000 : Shape := ⟨1, ![800000]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S50000x64 : Shape := ⟨2, ![50000, 64]⟩
abbrev S1x64 : Shape := ⟨2, ![1, 64]⟩
abbrev S50000x192 : Shape := ⟨2, ![50000, 192]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x800000, .i32⟩
  | 2 => ⟨S800000x32, .f32⟩
  | 3 => ⟨S32x64, .f32⟩
  | 4 => ⟨S32x64, .f32⟩
  | 5 => ⟨S32x64, .f32⟩
  | 6 => ⟨S128x8, .f32⟩
  | 7 => ⟨S8x128x128, .f32⟩
  | 8 => ⟨S128, .f32⟩
  | 9 => ⟨S128x64, .f32⟩
  | 10 => ⟨S64, .f32⟩
  | 11 => ⟨S128x64, .f32⟩
  | 12 => ⟨S64, .f32⟩
  | 13 => ⟨S800000x64, .f32⟩
  | 14 => ⟨S_, .f32⟩
  | 15 => ⟨S800000x64, .f32⟩
  | 16 => ⟨S800000x64, .f32⟩
  | 17 => ⟨S800000x64, .f32⟩
  | 18 => ⟨S800000x64, .f32⟩
  | 19 => ⟨S800000x64, .f32⟩
  | 20 => ⟨S800000x64, .f32⟩
  | 21 => ⟨S800000x64, .f32⟩
  | 22 => ⟨S800000x128, .f32⟩
  | 23 => ⟨S800000x8, .f32⟩
  | 24 => ⟨S_, .f32⟩
  | 25 => ⟨S800000x8, .f32⟩
  | 26 => ⟨S800000x8, .f32⟩
  | 27 => ⟨S1x800000, .i32⟩
  | 28 => ⟨S800000, .i32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S1x128x128, .f32⟩
  | 50 => ⟨S128x128, .f32⟩
  | 51 => ⟨S50000x128, .f32⟩
  | 52 => ⟨S50000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S1x128x128, .f32⟩
  | 61 => ⟨S128x128, .f32⟩
  | 62 => ⟨S50000x128, .f32⟩
  | 63 => ⟨S50000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128x128, .f32⟩
  | 72 => ⟨S128x128, .f32⟩
  | 73 => ⟨S50000x128, .f32⟩
  | 74 => ⟨S50000x128, .f32⟩
  | 75 => ⟨S800000x1, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S1x128x128, .f32⟩
  | 83 => ⟨S128x128, .f32⟩
  | 84 => ⟨S50000x128, .f32⟩
  | 85 => ⟨S50000x128, .f32⟩
  | 86 => ⟨S800000x1, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S1x128x128, .f32⟩
  | 94 => ⟨S128x128, .f32⟩
  | 95 => ⟨S50000x128, .f32⟩
  | 96 => ⟨S50000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S1x128x128, .f32⟩
  | 105 => ⟨S128x128, .f32⟩
  | 106 => ⟨S50000x128, .f32⟩
  | 107 => ⟨S50000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S1x128x128, .f32⟩
  | 116 => ⟨S128x128, .f32⟩
  | 117 => ⟨S50000x128, .f32⟩
  | 118 => ⟨S50000x128, .f32⟩
  | 119 => ⟨S800000x1, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x64, .f32⟩
  | 9 => ⟨S1x64, .f32⟩
  | 10 => ⟨S50000x64, .f32⟩
  | 11 => ⟨S50000x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S50000x64, .f32⟩
  | 18 => ⟨S50000x64, .f32⟩
  | 19 => ⟨S50000x192, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_cst : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_6 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_7 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_8 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_call2_cst : Ref sig .tc := ⟨.hbm, 133, rfl⟩
abbrev main_call2_v0 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩

abbrev nD : Nat := 1
abbrev τ : Topo := Topo.v7x

variable {F : FTy → Type} [FloatOps F]

class Facts₀ : Prop where
  bcast_S_S800000x64 : S_.BroadcastsInDim S800000x64 (![] : Fin 0 → Fin S800000x64.rank)
  concatenates_S800000x64_S800000x64_S800000x128_d1 : Shape.Concatenates [S800000x64, S800000x64] S800000x128 1
  bcast_S_S800000x8 : S_.BroadcastsInDim S800000x8 (![] : Fin 0 → Fin S800000x8.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S800000x8_S800000x1_0_0 : S800000x8.Slices ![0, 0] S800000x1
  bcast_S800000x1_S800000x128_0_1 : S800000x1.BroadcastsInDim S800000x128 (![0, 1] : Fin 2 → Fin S800000x128.rank)
  slices_S8x128x128_S1x128x128_0_0_0 : S8x128x128.Slices ![0, 0, 0] S1x128x128
  shapeCasts_S1x128x128_S128x128 : S1x128x128.ShapeCasts S128x128
  slices_S800000x8_S800000x1_0_1 : S800000x8.Slices ![0, 1] S800000x1
  slices_S8x128x128_S1x128x128_1_0_0 : S8x128x128.Slices ![1, 0, 0] S1x128x128
  slices_S800000x8_S800000x1_0_2 : S800000x8.Slices ![0, 2] S800000x1
  slices_S8x128x128_S1x128x128_2_0_0 : S8x128x128.Slices ![2, 0, 0] S1x128x128
  slices_S800000x8_S800000x1_0_3 : S800000x8.Slices ![0, 3] S800000x1
  slices_S8x128x128_S1x128x128_3_0_0 : S8x128x128.Slices ![3, 0, 0] S1x128x128
  slices_S800000x8_S800000x1_0_4 : S800000x8.Slices ![0, 4] S800000x1
  slices_S8x128x128_S1x128x128_4_0_0 : S8x128x128.Slices ![4, 0, 0] S1x128x128
  slices_S800000x8_S800000x1_0_5 : S800000x8.Slices ![0, 5] S800000x1
  slices_S8x128x128_S1x128x128_5_0_0 : S8x128x128.Slices ![5, 0, 0] S1x128x128
  slices_S800000x8_S800000x1_0_6 : S800000x8.Slices ![0, 6] S800000x1
  slices_S8x128x128_S1x128x128_6_0_0 : S8x128x128.Slices ![6, 0, 0] S1x128x128
  slices_S800000x8_S800000x1_0_7 : S800000x8.Slices ![0, 7] S800000x1
  slices_S8x128x128_S1x128x128_7_0_0 : S8x128x128.Slices ![7, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x128_S50000x64_S50000x192_d1 : Shape.Concatenates [S50000x128, S50000x64] S50000x192 1
  dot_S800000x32_S32x64_S800000x64_1_0_0_1_n_n_wf : DotDims.WF S800000x32 S32x64 S800000x64 [1] [0] [0] [1] [] []
  dot_S800000x128_S128x8_S800000x8_1_0_0_1_n_n_wf : DotDims.WF S800000x128 S128x8 S800000x8 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def dot_S800000x128_S128x8_S800000x8_1_0_0_1_n_n : DotDims S800000x128 S128x8 S800000x8 where
  lhsContracting := [1]
  rhsContracting := [0]
  lhsNonContracting := [0]
  rhsNonContracting := [1]
  lhsBatch := []
  rhsBatch := []
  wf := dot_S800000x128_S128x8_S800000x8_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The layer's mathematics over the extended reals, index by index.

  Per edge e: a gate vector g(e) ∈ EReal^8 from the edge's 32 attributes (two tanh products and a rectified product,
  mixed by a 128 × 8 matrix and rectified), and a gathered node row xs(e) ∈ EReal^128. The layer sums, into node n,
  over the edges e whose destination is n. Two arrangements of that sum are stated here:
    the message form    Σ_{e → n} Σ_k g(e,k) · (Σ_j xs(e,j) · Wk(k,j,o)),
    the support form    Σ_k Σ_j (Σ_{e → n} g(e,k) · xs(e,j)) · Wk(k,j,o).
  They agree when every entry is a real number (distributivity); on the extended reals they need not.
  The node output joins max(H + bk, 0) (128 columns) with a product of two tanh of affine maps of the node's row
  (64 columns).
-/
import Idealize.ShloMosaic.PureOps.Ideal
import Idealize.ShloMosaic.Lib.ValueIdx

noncomputable section

open scoped BigOperators
open Idealize.ShloMosaic Idealize.ShloMosaic.ValueIdx

namespace Cert.Spec

/-- A matrix of extended reals with literal extents. -/
abbrev Mat (a b : Nat) : Type := (⟨2, ![a, b]⟩ : Shape).Idx → EReal
/-- A rank-3 array of extended reals with literal extents. -/
abbrev Ten (a b c : Nat) : Type := (⟨3, ![a, b, c]⟩ : Shape).Idx → EReal

section Edge

variable {E : Nat} (ea : Mat E 32) (W1 W2 W3 : Mat 32 64) (W4a W4b : Mat 64 8) (W4 : Mat 128 8)
  (xs : Mat E 128) (Wk : Ten 8 128 128)

/-- The rectified linear feature: max(ea · W1, 0). -/
def lin (e : Fin E) (j : Fin 64) : EReal := max (∑ i : Fin 32, ea (ix2 e i) * W1 (ix2 i j)) 0

/-- The multiplicative feature: tanh(ea · W2) · tanh(ea · W3). -/
def mult (e : Fin E) (j : Fin 64) : EReal :=
  Ideal.tanh (∑ i : Fin 32, ea (ix2 e i) * W2 (ix2 i j)) * Ideal.tanh (∑ i : Fin 32, ea (ix2 e i) * W3 (ix2 i j))

/-- The gate with the mixing matrix given as its two halves: max(lin · W4a + mult · W4b, 0). -/
def gate (e : Fin E) (k : Fin 8) : EReal :=
  max ((∑ j : Fin 64, lin ea W1 e j * W4a (ix2 j k)) + ∑ j : Fin 64, mult ea W2 W3 e j * W4b (ix2 j k)) 0

/-- The two features side by side: columns 0..63 the linear one, 64..127 the multiplicative one. -/
def cat (e : Fin E) (j : Fin 128) : EReal :=
  if h : j.val < 64 then lin ea W1 e ⟨j.val, h⟩ else mult ea W2 W3 e ⟨j.val - 64, by omega⟩

/-- The gate with the mixing matrix whole: max([lin | mult] · W4, 0). -/
def gateCat (e : Fin E) (k : Fin 8) : EReal := max (∑ j : Fin 128, cat ea W1 W2 W3 e j * W4 (ix2 j k)) 0

/-- The upper and the lower 64 rows of the mixing matrix. -/
def upper (W4 : Mat 128 8) : Mat 64 8 := fun i =>
  W4 (ix2 ⟨(i 0).val, by have h : (i 0).val < 64 := (i 0).isLt; omega⟩ (i 1))
def lower (W4 : Mat 128 8) : Mat 64 8 := fun i =>
  W4 (ix2 ⟨64 + (i 0).val, by have h : (i 0).val < 64 := (i 0).isLt; omega⟩ (i 1))

/-- Edge e's gathered row through support k: Σ_j xs(e,j) · Wk(k,j,o). -/
def contrib (k : Fin 8) (e : Fin E) (o : Fin 128) : EReal := ∑ j : Fin 128, xs (ix2 e j) * Wk (ix3 k j o)

/-- Edge e's message: Σ_k g(e,k) · contrib k e o. -/
def msg (g : Fin E → Fin 8 → EReal) (e : Fin E) (o : Fin 128) : EReal := ∑ k : Fin 8, g e k * contrib xs Wk k e o

end Edge

section Node

variable {E N : Nat} (dst : Fin E → Int)

/-- The sum of u over the edges whose destination is node n. -/
def seg (u : Fin E → EReal) (n : Fin N) : EReal := ∑ e : Fin E, if dst e = (n.val : Int) then u e else 0

/-- The message form: messages summed into their destination. -/
def aggMsg (g : Fin E → Fin 8 → EReal) (xs : Mat E 128) (Wk : Ten 8 128 128) (n : Fin N) (o : Fin 128) : EReal :=
  seg dst (fun e => msg xs Wk g e o) n

/-- The support form: per support, gated rows summed into their destination, then through the support's matrix. -/
def aggSup (g : Fin E → Fin 8 → EReal) (xs : Mat E 128) (Wk : Ten 8 128 128) (n : Fin N) (o : Fin 128) : EReal :=
  ∑ k : Fin 8, ∑ j : Fin 128, seg dst (fun e => g e k * xs (ix2 e j)) n * Wk (ix3 k j o)

variable (H : Fin N → Fin 128 → EReal) (bk : Fin 128 → EReal) (x : Mat N 128) (W11 W12 : Mat 128 64)
  (b11 b12 : Fin 64 → EReal)

/-- The elementwise branch: tanh(x · W11 + b11) · tanh(x · W12 + b12). -/
def elem (n : Fin N) (c : Fin 64) : EReal :=
  Ideal.tanh ((∑ j : Fin 128, x (ix2 n j) * W11 (ix2 j c)) + b11 c)
    * Ideal.tanh ((∑ j : Fin 128, x (ix2 n j) * W12 (ix2 j c)) + b12 c)

/-- The node output: columns 0..127 max(H + bk, 0), columns 128..191 the elementwise branch. -/
def nodeOut (n : Fin N) (c : Fin 192) : EReal :=
  if h : c.val < 128 then max (H n ⟨c.val, h⟩ + bk ⟨c.val, h⟩) 0
  else elem x W11 W12 b11 b12 n ⟨c.val - 128, by have := c.isLt; omega⟩

end Node

/-- The destination of edge e: row 1 of the edge table, read as a signed integer. -/
def dstOf {E : Nat} (ei : (⟨2, ![2, E]⟩ : Shape).Idx → BitVec 32) (e : Fin E) : Int := (ei (ix2 (1 : Fin 2) e)).toInt

/-- A rank-1 array read at a coordinate. -/
def vec {n : Nat} (b : (⟨1, ![n]⟩ : Shape).Idx → EReal) (c : Fin n) : EReal := b (ix1 c)

end Cert.Spec

end
-- ==== Proof.EdgeBlock.lean ====
/-
  The value of one block of the edge-message stage, index by index.

  A block holds 8000 edges. For edge row r the body forms the gate vector g(r) ∈ EReal^8 from the row's 32 attributes
  (a rectified product with W1, a product of two tanh of products with W2 and W3, both mixed by the two halves of the
  mixing matrix and rectified), and the output row Σ_k g(r,k) · (Σ_j xs(r,j) · Wk(k,j,o)), accumulated support by
  support from zero. Every matrix product is a sum over its one contracted coordinate; the rest is pointwise.
-/
import proofs.«414678_j84086869721473_2_alg».proof.Proof.Gen.KernelIdeal.Frame
import proofs.«414678_j84086869721473_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Edge

open Idealize.ShloMosaic Idealize.ShloMosaic.ValueIdx
open Cert.KernelIdeal Cert.KernelIdeal.Gen
open scoped BigOperators

/-! ## The product [8000, 32] × [32, 64] at an index -/

theorem lhsA_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem lhsA_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q
theorem rhsA_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q
theorem rhsA_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- The product into a zero accumulator, at (r, c): the sum over the contracted coordinate. -/
theorem matmulA_apply (a : FVec Ideal S8000x32 .f32) (b : FVec Ideal S32x64 .f32) (r : Fin 8000) (c : Fin 64) :
    matmul dot_S8000x32_S32x64_S8000x64_1_0_0_1_n_n none a b (constant S8000x64 .f32 0x00000000#32) (ix2 r c)
      = ∑ k : Fin 32, a (ix2 r k) * b (ix2 k c) := by
  refine (Ideal.matmul_constant_zero_apply dot_S8000x32_S32x64_S8000x64_1_0_0_1_n_n none a b (ix2 r c)).trans ?_
  rw [← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 r c) ((contrEquiv1 dot_S8000x32_S32x64_S8000x64_1_0_0_1_n_n 32 rfl rfl).symm k) = ix2 r k := funext fun x => Fin.ext (by
    match x with
    | ⟨0, _⟩ => exact lhsA_0 _ _
    | ⟨1, _⟩ => exact (lhsA_1 _ _).trans hk)
  have er : dot_S8000x32_S32x64_S8000x64_1_0_0_1_n_n.rhsIdx (ix2 r c) ((contrEquiv1 dot_S8000x32_S32x64_S8000x64_1_0_0_1_n_n 32 rfl rfl).symm k) = ix2 k c := funext fun x => Fin.ext (by
    match x with
    | ⟨0, _⟩ => exact (rhsA_0 _ _).trans hk
    | ⟨1, _⟩ => exact rhsA_1 _ _)
  rw [el, er]

/-! ## The product [8000, 64] × [64, 8] at an index -/

theorem lhsB_0 (i : S8000x8.Idx) (q : dot_S8000x64_S64x8_S8000x8_1_0_0_1_n_n.contr.Idx) :
    (dot_S8000x64_S64x8_S8000x8_1_0_0_1_n_n.lhsIdx i q 0).val = (i 0).val := by
  unfold DotDims.lhsIdx
  rw [dif_neg (show ¬(0 : Fin S8000x64.rank) ∈ dot_S8000x64_S64x8_S8000x8_1_0_0_1_n_n.lhsBatch by decide), dif_pos (show (0 : Fin S8000x64.rank) ∈ dot_S8000x64_S64x8_S8000x8_1_0_0_1_n_n.lhsNonContracting by decide)]
  rfl
theorem lhsB_1 (i : S8000x8.Idx) (q : dot_S8000x64_S64x8_S8000x8_1_0_0_1_n_n.contr.Idx) :
    (dot_S8000x64_S64x8_S8000x8_1_0_0_1_n_n.lhsIdx i q 1).val = (q ⟨0, by decide⟩).val :=
  dot_S8000x64_S64x8_S8000x8_1_0_0_1_n_n.lhsIdx_val_of_single rfl i q
theorem rhsB_0 (i : S8000x8.Idx) (q : dot_S8000x64_S64x8_S8000x8_1_0_0_1_n_n.contr.Idx) :
    (dot_S8000x64_S64x8_S8000x8_1_0_0_1_n_n.rhsIdx i q 0).val = (q ⟨0, by decide⟩).val :=
  dot_S8000x64_S64x8_S8000x8_1_0_0_1_n_n.rhsIdx_val_of_single rfl i q
theorem rhsB_1 (i : S8000x8.Idx) (q : dot_S8000x64_S64x8_S8000x8_1_0_0_1_n_n.contr.Idx) :
    (dot_S8000x64_S64x8_S8000x8_1_0_0_1_n_n.rhsIdx i q 1).val = (i 1).val := by
  unfold DotDims.rhsIdx
  rw [dif_neg (show ¬(1 : Fin S64x8.rank) ∈ dot_S8000x64_S64x8_S8000x8_1_0_0_1_n_n.rhsBatch by decide), dif_pos (show (1 : Fin S64x8.rank) ∈ dot_S8000x64_S64x8_S8000x8_1_0_0_1_n_n.rhsNonContracting by decide)]
  rfl

/-- The product into a zero accumulator, at (r, c): the sum over the contracted coordinate. -/
theorem matmulB_apply (a : FVec Ideal S8000x64 .f32) (b : FVec Ideal S64x8 .f32) (r : Fin 8000) (c : Fin 8) :
    matmul dot_S8000x64_S64x8_S8000x8_1_0_0_1_n_n none a b (constant S8000x8 .f32 0x00000000#32) (ix2 r c)
      = ∑ k : Fin 64, a (ix2 r k) * b (ix2 k c) := by
  refine (Ideal.matmul_constant_zero_apply dot_S8000x64_S64x8_S8000x8_1_0_0_1_n_n none a b (ix2 r c)).trans ?_
  rw [← Equiv.sum_comp (contrEquiv1 dot_S8000x64_S64x8_S8000x8_1_0_0_1_n_n 64 rfl rfl).symm]
  refine Finset.sum_congr rfl fun k _ => ?_
  have hk := contrEquiv1_symm_val dot_S8000x64_S64x8_S8000x8_1_0_0_1_n_n 64 rfl rfl k
  have el : dot_S8000x64_S64x8_S8000x8_1_0_0_1_n_n.lhsIdx (ix2 r c) ((contrEquiv1 dot_S8000x64_S64x8_S8000x8_1_0_0_1_n_n 64 rfl rfl).symm k) = ix2 r k := funext fun x => Fin.ext (by
    match x with
    | ⟨0, _⟩ => exact lhsB_0 _ _
    | ⟨1, _⟩ => exact (lhsB_1 _ _).trans hk)
  have er : dot_S8000x64_S64x8_S8000x8_1_0_0_1_n_n.rhsIdx (ix2 r c) ((contrEquiv1 dot_S8000x64_S64x8_S8000x8_1_0_0_1_n_n 64 rfl rfl).symm k) = ix2 k c := funext fun x => Fin.ext (by
    match x with
    | ⟨0, _⟩ => exact (rhsB_0 _ _).trans hk
    | ⟨1, _⟩ => exact rhsB_1 _ _)
  rw [el, er]

/-! ## The product [8000, 128] × [128, 128] at an index -/

theorem lhsC_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhsC_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhsC_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhsC_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The product into a zero accumulator, at (r, c): the sum over the contracted coordinate. -/
theorem matmulC_apply (a : FVec Ideal S8000x128 .f32) (b : FVec Ideal S128x128 .f32) (r : Fin 8000) (c : Fin 128) :
    matmul dot_S8000x128_S128x128_S8000x128_1_0_0_1_n_n none a b (constant S8000x128 .f32 0x00000000#32) (ix2 r c)
      = ∑ k : Fin 128, a (ix2 r k) * b (ix2 k c) := by
  refine (Ideal.matmul_constant_zero_apply dot_S8000x128_S128x128_S8000x128_1_0_0_1_n_n none a b (ix2 r c)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r c) ((contrEquiv1 dot_S8000x128_S128x128_S8000x128_1_0_0_1_n_n 128 rfl rfl).symm k) = ix2 r k := funext fun x => Fin.ext (by
    match x with
    | ⟨0, _⟩ => exact lhsC_0 _ _
    | ⟨1, _⟩ => exact (lhsC_1 _ _).trans hk)
  have er : dot_S8000x128_S128x128_S8000x128_1_0_0_1_n_n.rhsIdx (ix2 r c) ((contrEquiv1 dot_S8000x128_S128x128_S8000x128_1_0_0_1_n_n 128 rfl rfl).symm k) = ix2 k c := funext fun x => Fin.ext (by
    match x with
    | ⟨0, _⟩ => exact (rhsC_0 _ _).trans hk
    | ⟨1, _⟩ => exact rhsC_1 _ _)
  rw [el, er]

/-! ## Layout steps at an index -/

/-- A column [a, 1] spread over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a gate block, spread over the 128 output columns, reads at (r, o) the gate at (r, k). -/
theorem gate_column_apply (k : Nat) (g : FVec Ideal S8000x8 .f32) (h : S8000x8.Slices ![0, k] S8000x1)
    (hb : S8000x1.Broadcasts S8000x128) (r : Fin 8000) (o : Fin 128) (kk : Fin 8) (hk : kk.val = k) :
    broadcastTo S8000x128 (extractStridedSlice S8000x1 ![0, k] g h) hb (ix2 r o) = g (ix2 r kk) :=
  (broadcastTo_a1_ab_apply _ hb r o).trans
    (slice2_axis1_apply k g h r (0 : Fin 1) kk (by rw [hk]; rfl))

/-- Slab k of the rank-3 support array, loaded as [1, 128, 128], reads at (0, j, o) the array at (k, j, o). -/
theorem slab_load_apply (k : Nat) (x7 : Vec Ideal S8x128x128 .f32)
    (inb : ∀ a, (![k, 0, 0] : Fin 3 → Nat) a + S1x128x128.size a ≤ S8x128x128.size a)
    (j o : Fin 128) (kk : Fin 8) (hk : kk.val = k) :
    View.ld x7 (Rect.unit (s := S8x128x128) ![k, 0, 0] S1x128x128.size inb) (ix3 (0 : Fin 1) j o) = x7 (ix3 kk j o) := by
  refine congrArg x7 (funext fun a => Fin.ext ?_)
  match a with
  | ⟨0, _⟩ => show k + 1 * 0 = kk.val; omega
  | ⟨1, _⟩ => show 0 + 1 * j.val = j.val; omega
  | ⟨2, _⟩ => show 0 + 1 * o.val = o.val; omega

/-- The gathered rows against slab k, at (r, o): Σ_j xs(r, j) · Wk(k, j, o). -/
theorem support_apply (k : Nat) (x1 : FVec Ideal S8000x128 .f32) (x7 : Vec Ideal S8x128x128 .f32)
    (inb : ∀ a, (![k, 0, 0] : Fin 3 → Nat) a + S1x128x128.size a ≤ S8x128x128.size a)
    (hsc : S1x128x128.ShapeCasts S128x128) (r : Fin 8000) (o : Fin 128) (kk : Fin 8) (hk : kk.val = k) :
    matmul dot_S8000x128_S128x128_S8000x128_1_0_0_1_n_n none x1
        (shapeCast S128x128 (View.ld x7 (Rect.unit (s := S8x128x128) ![k, 0, 0] S1x128x128.size inb)) hsc : FVec Ideal S128x128 .f32)
        (constant S8000x128 .f32 0x00000000#32) (ix2 r o)
      = Cert.Spec.contrib x1 x7 kk r o :=
  (matmulC_apply x1 _ r o).trans (Finset.sum_congr rfl fun j _ =>
    congrArg (x1 (ix2 r j) * ·) ((shapeCast_1ab_ab_apply _ hsc j o).trans (slab_load_apply k x7 inb j o kk hk)))

/-! ## The gate block -/

/-- The rectified product of the attribute rows with a 32 × 64 matrix, as the body forms it. -/
def linBlk (x0 : FVec Ideal S8000x32 .f32) (w : FVec Ideal S32x64 .f32) : FVec Ideal S8000x64 .f32 :=
  maximumf (matmul dot_S8000x32_S32x64_S8000x64_1_0_0_1_n_n none x0 w (constant S8000x64 .f32 0x00000000#32))
    (broadcast S8000x64 (Scalar.ofBits .f32 0x00000000#32))

/-- The product of the two tanh features, as the body forms it. -/
def multBlk (x0 : FVec Ideal S8000x32 .f32) (w2 w3 : FVec Ideal S32x64 .f32) : FVec Ideal S8000x64 .f32 :=
  mulf (tanh (matmul dot_S8000x32_S32x64_S8000x64_1_0_0_1_n_n none x0 w2 (constant S8000x64 .f32 0x00000000#32)))
    (tanh (matmul dot_S8000x32_S32x64_S8000x64_1_0_0_1_n_n none x0 w3 (constant S8000x64 .f32 0x00000000#32)))

theorem linBlk_apply (x0 : FVec Ideal S8000x32 .f32) (w : FVec Ideal S32x64 .f32) (r : Fin 8000) (j : Fin 64) :
    linBlk x0 w (ix2 r j) = Cert.Spec.lin x0 w r j := by
  show max (matmul dot_S8000x32_S32x64_S8000x64_1_0_0_1_n_n none x0 w (constant S8000x64 .f32 0x00000000#32) (ix2 r j))
      (Ideal.ofBits .f32 0x00000000#32) = max (∑ i : Fin 32, x0 (ix2 r i) * w (ix2 i j)) 0
  rw [matmulA_apply, Ideal.ofBits_zero_f32]

theorem multBlk_apply (x0 : FVec Ideal S8000x32 .f32) (w2 w3 : FVec Ideal S32x64 .f32) (r : Fin 8000) (j : Fin 64) :
    multBlk x0 w2 w3 (ix2 r j) = Cert.Spec.mult x0 w2 w3 r j := by
  show Ideal.tanh (matmul dot_S8000x32_S32x64_S8000x64_1_0_0_1_n_n none x0 w2 (constant S8000x64 .f32 0x00000000#32) (ix2 r j))
      * Ideal.tanh (matmul dot_S8000x32_S32x64_S8000x64_1_0_0_1_n_n none x0 w3 (constant S8000x64 .f32 0x00000000#32) (ix2 r j))
    = Ideal.tanh (∑ i : Fin 32, x0 (ix2 r i) * w2 (ix2 i j)) * Ideal.tanh (∑ i : Fin 32, x0 (ix2 r i) * w3 (ix2 i j))
  rw [matmulA_apply, matmulA_apply]

/-- The gate payload is the rectified sum of the two features through the two halves of the mixing matrix. -/
theorem pay2_eq (x0 : Vec Ideal S8000x32 .f32) (x2 x3 x4 : Vec Ideal S32x64 .f32) (x5 x6 : Vec Ideal S64x8 .f32) :
    k0_pay2 x0 x2 x3 x4 x5 x6
      = maximumf (addf
          (matmul dot_S8000x64_S64x8_S8000x8_1_0_0_1_n_n none (linBlk x0 x2) (shapeCast S64x8 x5 shapeCasts_S64x8_S64x8 : FVec Ideal S64x8 .f32) (constant S8000x8 .f32 0x00000000#32))
          (matmul dot_S8000x64_S64x8_S8000x8_1_0_0_1_n_n none (multBlk x0 x3 x4) (shapeCast S64x8 x6 shapeCasts_S64x8_S64x8 : FVec Ideal S64x8 .f32) (constant S8000x8 .f32 0x00000000#32)))
        (broadcast S8000x8 (Scalar.ofBits .f32 0x00000000#32)) := rfl

/-- The gate payload at (r, k) is the gate of edge row r at k. -/
theorem gate_apply (x0 : Vec Ideal S8000x32 .f32) (x2 x3 x4 : Vec Ideal S32x64 .f32) (x5 x6 : Vec Ideal S64x8 .f32)
    (r : Fin 8000) (k : Fin 8) :
    k0_pay2 x0 x2 x3 x4 x5 x6 (ix2 r k) = Cert.Spec.gate x0 x2 x3 x4 x5 x6 r k := by
  rw [pay2_eq, shapeCast_self, shapeCast_self]
  show max (matmul dot_S8000x64_S64x8_S8000x8_1_0_0_1_n_n none (linBlk x0 x2) x5 (constant S8000x8 .f32 0x00000000#32) (ix2 r k)
        + matmul dot_S8000x64_S64x8_S8000x8_1_0_0_1_n_n none (multBlk x0 x3 x4) x6 (constant S8000x8 .f32 0x00000000#32) (ix2 r k))
      (Ideal.ofBits .f32 0x00000000#32) = _
  rw [matmulB_apply, matmulB_apply, Ideal.ofBits_zero_f32]
  unfold Cert.Spec.gate
  simp only [linBlk_apply, multBlk_apply]

/-! ## The accumulation over the eight supports -/

theorem hz2 : (![0, 0] : Fin 2 → Nat) = fun _ => 0 := funext fun a => by fin_cases a <;> rfl

/-- Column k of a gate block over the 128 output columns. -/
abbrev gcol (k : Nat) (g : FVec Ideal S8000x8 .f32) (h : S8000x8.Slices ![0, k] S8000x1) : FVec Ideal S8000x128 .f32 :=
  broadcastTo S8000x128 (extractStridedSlice S8000x1 ![0, k] g h) broadcasts_S8000x1_S8000x128

/-- The gathered rows against one loaded slab. -/
abbrev slabProd (x : FVec Ideal S8000x128 .f32) (s : Vec Ideal S1x128x128 .f32) : FVec Ideal S8000x128 .f32 :=
  matmul dot_S8000x128_S128x128_S8000x128_1_0_0_1_n_n none x
    (shapeCast S128x128 s shapeCasts_S1x128x128_S128x128 : FVec Ideal S128x128 .f32) (constant S8000x128 .f32 0x00000000#32)

/-- One term of the message: the gate at (r, k) times edge r's gathered row through support k. -/
theorem term_apply (k : Nat) (g : FVec Ideal S8000x8 .f32) (hs : S8000x8.Slices ![0, k] S8000x1)
    (x1 : FVec Ideal S8000x128 .f32) (x7 : Vec Ideal S8x128x128 .f32)
    (inb : ∀ a, (![k, 0, 0] : Fin 3 → Nat) a + S1x128x128.size a ≤ S8x128x128.size a)
    (r : Fin 8000) (o : Fin 128) (kk : Fin 8) (hk : kk.val = k) :
    gcol k g hs (ix2 r o) * slabProd x1 (View.ld x7 (Rect.unit (s := S8x128x128) ![k, 0, 0] S1x128x128.size inb)) (ix2 r o)
      = g (ix2 r kk) * Cert.Spec.contrib x1 x7 kk r o := by
  exact congrArg₂ (· * ·) (gate_column_apply k g hs _ r o kk hk) (support_apply k x1 x7 inb _ r o kk hk)

theorem pay3_eq (x1 : Vec Ideal S8000x128 .f32) : k0_pay3 x1 = x1 := shapeCast_self _ _

theorem pay4_apply (x0 : Vec Ideal S8000x32 .f32) (x2 x3 x4 : Vec Ideal S32x64 .f32) (x5 x6 : Vec Ideal S64x8 .f32)
    (x1 : Vec Ideal S8000x128 .f32) (s0 : Vec Ideal S1x128x128 .f32) (r : Fin 8000) (o : Fin 128) :
    k0_pay4 x0 x2 x3 x4 x5 x6 x1 s0 (ix2 r o)
      = Ideal.ofBits .f32 0x00000000#32 + gcol 0 (k0_pay2 x0 x2 x3 x4 x5 x6) slices_S8000x8_o0_0_S8000x1 (ix2 r o) * slabProd (k0_pay3 x1) s0 (ix2 r o) := rfl

theorem pay5_apply (g : FVec Ideal S8000x8 .f32) (x v30 : FVec Ideal S8000x128 .f32) (s1 s2 s3 s4 s5 : Vec Ideal S1x128x128 .f32)
    (r : Fin 8000) (o : Fin 128) :
    k0_pay5 g x v30 s1 s2 s3 s4 s5 (ix2 r o)
      = v30 (ix2 r o) + gcol 1 g slices_S8000x8_o0_1_S8000x1 (ix2 r o) * slabProd x s1 (ix2 r o)
          + gcol 2 g slices_S8000x8_o0_2_S8000x1 (ix2 r o) * slabProd x s2 (ix2 r o)
          + gcol 3 g slices_S8000x8_o0_3_S8000x1 (ix2 r o) * slabProd x s3 (ix2 r o)
          + gcol 4 g slices_S8000x8_o0_4_S8000x1 (ix2 r o) * slabProd x s4 (ix2 r o)
          + gcol 5 g slices_S8000x8_o0_5_S8000x1 (ix2 r o) * slabProd x s5 (ix2 r o) := rfl

theorem pay6_eq (x : FVec Ideal S8000x128 .f32) (s6 : Vec Ideal S1x128x128 .f32) : k0_pay6 x s6 = slabProd x s6 := rfl

theorem pay1_apply (g : FVec Ideal S8000x8 .f32) (x v65 v68 : FVec Ideal S8000x128 .f32) (s7 : Vec Ideal S1x128x128 .f32)
    (r : Fin 8000) (o : Fin 128) :
    k0_pay1 g x v65 v68 s7 (ix2 r o)
      = v65 (ix2 r o) + gcol 6 g slices_S8000x8_o0_6_S8000x1 (ix2 r o) * v68 (ix2 r o)
          + gcol 7 g slices_S8000x8_o0_7_S8000x1 (ix2 r o) * slabProd x s7 (ix2 r o) := rfl

/-! ## The block -/

/-- Row r of the block: the message of edge row r, Σ_k g(r,k) · Σ_j xs(r,j) · Wk(k,j,o). -/
theorem out0_8_apply (x0 : Vec Ideal S8000x32 .f32) (x1 : Vec Ideal S8000x128 .f32) (x2 x3 x4 : Vec Ideal S32x64 .f32) (x5 x6 : Vec Ideal S64x8 .f32) (x7 : Vec Ideal S8x128x128 .f32) (r : Fin 8000) (o : Fin 128) :
    Gen.out0_8 x0 x1 x2 x3 x4 x5 x6 x7 (ix2 r o) = Cert.Spec.msg x1 x7 (Cert.Spec.gate x0 x2 x3 x4 x5 x6) r o := by
  unfold Gen.out0_8
  rw [View.canon_unit_zero hz2]
  simp only [View.ld_unit_zero (S := S8000x32) hz2, View.ld_unit_zero (S := S32x64) hz2,
    View.ld_unit_zero (S := S64x8) hz2, View.ld_unit_zero (S := S8000x128) hz2]
  rw [pay1_apply, pay5_apply, pay4_apply, pay6_eq, pay3_eq]
  rw [term_apply 0 (k0_pay2 x0 x2 x3 x4 x5 x6) _ x1 x7 _ r o 0 rfl, term_apply 1 (k0_pay2 x0 x2 x3 x4 x5 x6) _ x1 x7 _ r o 1 rfl,
    term_apply 2 (k0_pay2 x0 x2 x3 x4 x5 x6) _ x1 x7 _ r o 2 rfl, term_apply 3 (k0_pay2 x0 x2 x3 x4 x5 x6) _ x1 x7 _ r o 3 rfl,
    term_apply 4 (k0_pay2 x0 x2 x3 x4 x5 x6) _ x1 x7 _ r o 4 rfl, term_apply 5 (k0_pay2 x0 x2 x3 x4 x5 x6) _ x1 x7 _ r o 5 rfl,
    term_apply 6 (k0_pay2 x0 x2 x3 x4 x5 x6) _ x1 x7 _ r o 6 rfl, term_apply 7 (k0_pay2 x0 x2 x3 x4 x5 x6) _ x1 x7 _ r o 7 rfl]
  simp only [gate_apply]
  rw [Ideal.ofBits_zero_f32, zero_add]
  unfold Cert.Spec.msg
  rw [Fin.sum_univ_eight]

end Cert.KernelIdeal.Edge

end
-- ==== Proof.EdgeArray.lean ====
/-
  From the blocks to the array: the edge-message stage.

  The stage runs over 100 points; point t reads rows 8000·t … 8000·t + 7999 of the edge attributes and of the gathered
  node rows, reads the six weight matrices and the rank-3 support array whole, and writes rows 8000·t … 8000·t + 7999
  of the output. Row r of a point's block depends only on row r of the two row-blocked inputs, so it is the message of
  edge 8000·t + r computed from the whole arrays. The 100 blocks tile the 800000 rows (row e lies in point e / 8000's
  block), hence after the last point the output array holds, at (e, o), the message of edge e at column o.
-/
import proofs.«414678_j84086869721473_2_alg».proof.Proof.Gen.KernelIdeal.Frame
import proofs.«414678_j84086869721473_2_alg».proof.Proof.Spec
import proofs.«414678_j84086869721473_2_alg».proof.Proof.EdgeBlock
import Idealize.ShloMosaic.Lib.ValueIdx
import Idealize.ShloMosaic.Lib.Pipeline.Value

noncomputable section

/-! ## A row of the specification depends only on that row of the row-indexed inputs -/

namespace Cert.Spec

open Idealize.ShloMosaic Idealize.ShloMosaic.ValueIdx
open scoped BigOperators

variable {E E' : Nat}

/-- The rectified linear feature at row r of ea' is that at row e of ea when the two rows agree. -/
theorem lin_row_congr (ea : Mat E 32) (ea' : Mat E' 32) (W1 : Mat 32 64) (e : Fin E) (r : Fin E')
    (h : ∀ i, ea' (ix2 r i) = ea (ix2 e i)) (j : Fin 64) : lin ea' W1 r j = lin ea W1 e j := by
  unfold lin
  simp only [h]

/-- The multiplicative feature at row r of ea' is that at row e of ea when the two rows agree. -/
theorem mult_row_congr (ea : Mat E 32) (ea' : Mat E' 32) (W2 W3 : Mat 32 64) (e : Fin E) (r : Fin E')
    (h : ∀ i, ea' (ix2 r i) = ea (ix2 e i)) (j : Fin 64) : mult ea' W2 W3 r j = mult ea W2 W3 e j := by
  unfold mult
  simp only [h]

/-- The gate at row r of ea' is that at row e of ea when the two rows agree. -/
theorem gate_row_congr (ea : Mat E 32) (ea' : Mat E' 32) (W1 W2 W3 : Mat 32 64) (W4a W4b : Mat 64 8) (e : Fin E)
    (r : Fin E') (h : ∀ i, ea' (ix2 r i) = ea (ix2 e i)) (k : Fin 8) :
    gate ea' W1 W2 W3 W4a W4b r k = gate ea W1 W2 W3 W4a W4b e k := by
  unfold gate
  simp only [lin_row_congr ea ea' W1 e r h, mult_row_congr ea ea' W2 W3 e r h]

/-- The row through support k at row r of xs' is that at row e of xs when the two rows agree. -/
theorem contrib_row_congr (xs : Mat E 128) (xs' : Mat E' 128) (Wk : Ten 8 128 128) (e : Fin E) (r : Fin E')
    (h : ∀ j, xs' (ix2 r j) = xs (ix2 e j)) (k : Fin 8) (o : Fin 128) :
    contrib xs' Wk k r o = contrib xs Wk k e o := by
  unfold contrib
  simp only [h]

/-- The message at row r of (g', xs') is that at row e of (g, xs) when the gates and the rows agree. -/
theorem msg_row_congr (xs : Mat E 128) (xs' : Mat E' 128) (Wk : Ten 8 128 128) (g : Fin E → Fin 8 → EReal)
    (g' : Fin E' → Fin 8 → EReal) (e : Fin E) (r : Fin E') (hx : ∀ j, xs' (ix2 r j) = xs (ix2 e j))
    (hg : ∀ k, g' r k = g e k) (o : Fin 128) : msg xs' Wk g' r o = msg xs Wk g e o := by
  unfold msg
  simp only [hg, contrib_row_congr xs xs' Wk e r hx]

end Cert.Spec

namespace Cert.KernelIdeal.Edge

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b)) (c : Dev nD)

/-! ## The windows' block indices over the grid -/

/-- At point t the three row-blocked windows (attributes, gathered rows, output) sit at block (t, 0) and the six
    whole-array windows at block 0 on every axis. -/
theorem edge_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0 :=
  (by decide +kernel : ∀ t : Fin grid0.N, _)

/-- Row 8000·t + r is a row of the 800000-row arrays. -/
theorem row_lt (t : Fin cfg0.N) (r : Fin 8000) : 8000 * t.val + r.val < 800000 := by
  have ht : t.val < 100 := lt_of_lt_of_eq t.isLt N_0
  have hr := r.isLt
  omega

/-! ## The input blocks read off the arrays -/

/-- The attribute block at point t: row r is row 8000·t + r of the attribute array. -/
theorem attr_block_apply (t : Fin cfg0.N) (r : Fin 8000) (i : Fin 32) :
    (iblk0 V c 0 t : Vec Ideal S8000x32 .f32) (ix2 r i)
      = (V c main_arg2 : S800000x32.Idx → Elt Ideal .f32) (ix2 ⟨8000 * t.val + r.val, row_lt t r⟩ i) := by
  obtain ⟨e0, e1, -⟩ := edge_index_facts t
  unfold iblk0
  rw [View.read_apply]
  show V c main_arg2 _ = V c main_arg2 _
  congr 1
  funext a; apply Fin.ext
  match a with
  | ⟨0, _⟩ => show win0_0.index t (0 : Fin 2) * 8000 + 1 * r.val = 8000 * t.val + r.val; omega
  | ⟨1, _⟩ => show win0_0.index t (1 : Fin 2) * 32 + 1 * i.val = i.val; omega

/-- The gathered-row block at point t: row r is row 8000·t + r of the gathered-row array. -/
theorem rows_block_apply (t : Fin cfg0.N) (r : Fin 8000) (j : Fin 128) :
    (iblk0 V c 1 t : Vec Ideal S8000x128 .f32) (ix2 r j)
      = (V c main_v6 : S800000x128.Idx → Elt Ideal .f32) (ix2 ⟨8000 * t.val + r.val, row_lt t r⟩ j) := by
  obtain ⟨-, -, e0, e1, -⟩ := edge_index_facts t
  unfold iblk0
  rw [View.read_apply]
  show V c main_v6 _ = V c main_v6 _
  congr 1
  funext a; apply Fin.ext
  match a with
  | ⟨0, _⟩ => show win0_1.index t (0 : Fin 2) * 8000 + 1 * r.val = 8000 * t.val + r.val; omega
  | ⟨1, _⟩ => show win0_1.index t (1 : Fin 2) * 128 + 1 * j.val = j.val; omega

/-- The first weight matrix's block is the matrix. -/
theorem w1_block (t : Fin cfg0.N) :
    (iblk0 V c 2 t : Vec Ideal S32x64 .f32) = (V c main_arg3 : S32x64.Idx → Elt Ideal .f32) := by
  obtain ⟨-, -, -, -, -, -, e0, e1, -⟩ := edge_index_facts t
  funext y
  unfold iblk0
  rw [View.read_apply]
  show V c main_arg3 _ = V c main_arg3 y
  congr 1
  funext a; apply Fin.ext
  match a with
  | ⟨0, _⟩ => show win0_2.index t (0 : Fin 2) * 32 + 1 * (y 0).val = (y 0).val; omega
  | ⟨1, _⟩ => show win0_2.index t (1 : Fin 2) * 64 + 1 * (y 1).val = (y 1).val; omega

/-- The second weight matrix's block is the matrix. -/
theorem w2_block (t : Fin cfg0.N) :
    (iblk0 V c 3 t : Vec Ideal S32x64 .f32) = (V c main_arg4 : S32x64.Idx → Elt Ideal .f32) := by
  obtain ⟨-, -, -, -, -, -, -, -, e0, e1, -⟩ := edge_index_facts t
  funext y
  unfold iblk0
  rw [View.read_apply]
  show V c main_arg4 _ = V c main_arg4 y
  congr 1
  funext a; apply Fin.ext
  match a with
  | ⟨0, _⟩ => show win0_3.index t (0 : Fin 2) * 32 + 1 * (y 0).val = (y 0).val; omega
  | ⟨1, _⟩ => show win0_3.index t (1 : Fin 2) * 64 + 1 * (y 1).val = (y 1).val; omega

/-- The third weight matrix's block is the matrix. -/
theorem w3_block (t : Fin cfg0.N) :
    (iblk0 V c 4 t : Vec Ideal S32x64 .f32) = (V c main_arg5 : S32x64.Idx → Elt Ideal .f32) := by
  obtain ⟨-, -, -, -, -, -, -, -, -, -, e0, e1, -⟩ := edge_index_facts t
  funext y
  unfold iblk0
  rw [View.read_apply]
  show V c main_arg5 _ = V c main_arg5 y
  congr 1
  funext a; apply Fin.ext
  match a with
  | ⟨0, _⟩ => show win0_4.index t (0 : Fin 2) * 32 + 1 * (y 0).val = (y 0).val; omega
  | ⟨1, _⟩ => show win0_4.index t (1 : Fin 2) * 64 + 1 * (y 1).val = (y 1).val; omega

/-- The upper mixing matrix's block is the matrix. -/
theorem w4a_block (t : Fin cfg0.N) :
    (iblk0 V c 5 t : Vec Ideal S64x8 .f32) = (V c main_v4 : S64x8.Idx → Elt Ideal .f32) := by
  obtain ⟨-, -, -, -, -, -, -, -, -, -, -, -, e0, e1, -⟩ := edge_index_facts t
  funext y
  unfold iblk0
  rw [View.read_apply]
  show V c main_v4 _ = V c main_v4 y
  congr 1
  funext a; apply Fin.ext
  match a with
  | ⟨0, _⟩ => show win0_5.index t (0 : Fin 2) * 64 + 1 * (y 0).val = (y 0).val; omega
  | ⟨1, _⟩ => show win0_5.index t (1 : Fin 2) * 8 + 1 * (y 1).val = (y 1).val; omega

/-- The lower mixing matrix's block is the matrix. -/
theorem w4b_block (t : Fin cfg0.N) :
    (iblk0 V c 6 t : Vec Ideal S64x8 .f32) = (V c main_v5 : S64x8.Idx → Elt Ideal .f32) := by
  obtain ⟨-, -, -, -, -, -, -, -, -, -, -, -, -, -, e0, e1, -⟩ := edge_index_facts t
  funext y
  unfold iblk0
  rw [View.read_apply]
  show V c main_v5 _ = V c main_v5 y
  congr 1
  funext a; apply Fin.ext
  match a with
  | ⟨0, _⟩ => show win0_6.index t (0 : Fin 2) * 64 + 1 * (y 0).val = (y 0).val; omega
  | ⟨1, _⟩ => show win0_6.index t (1 : Fin 2) * 8 + 1 * (y 1).val = (y 1).val; omega

/-- The support array's block is the array. -/
theorem wk_block (t : Fin cfg0.N) :
    (iblk0 V c 7 t : Vec Ideal S8x128x128 .f32) = (V c main_arg7 : S8x128x128.Idx → Elt Ideal .f32) := by
  obtain ⟨-, -, -, -, -, -, -, -, -, -, -, -, -, -, -, -, e0, e1, e2⟩ := edge_index_facts t
  funext y
  unfold iblk0
  rw [View.read_apply]
  show V c main_arg7 _ = V c main_arg7 y
  congr 1
  funext a; apply Fin.ext
  match a with
  | ⟨0, _⟩ => show win0_7.index t (0 : Fin 3) * 8 + 1 * (y 0).val = (y 0).val; omega
  | ⟨1, _⟩ => show win0_7.index t (1 : Fin 3) * 128 + 1 * (y 1).val = (y 1).val; omega
  | ⟨2, _⟩ => show win0_7.index t (2 : Fin 3) * 128 + 1 * (y 2).val = (y 2).val; omega

/-! ## The output array as one function of the input arrays -/

/-- The output array: at (e, o) the message of edge e at column o, from the whole input arrays. -/
abbrev edgeArr : S800000x128.Idx → Elt Ideal .f32 := fun i =>
  Cert.Spec.msg (V c main_v6) (V c main_arg7)
    (Cert.Spec.gate (V c main_arg2) (V c main_arg3) (V c main_arg4) (V c main_arg5) (V c main_v4) (V c main_v5)) (i 0) (i 1)

/-- What the body leaves at (r, o) of point t's output block is the message of edge 8000·t + r at column o. -/
theorem block_value (t : Fin cfg0.N) (y : S8000x128.Idx) :
    out0_8 (iblk0 V c 0 t) (iblk0 V c 1 t) (iblk0 V c 2 t) (iblk0 V c 3 t) (iblk0 V c 4 t) (iblk0 V c 5 t)
        (iblk0 V c 6 t) (iblk0 V c 7 t) y
      = edgeArr V c (ix2 ⟨8000 * t.val + (y 0).val, row_lt t (y 0)⟩ (y 1)) := by
  obtain ⟨r, o, rfl⟩ : ∃ (r : Fin 8000) (o : Fin 128), y = ix2 r o := ⟨y 0, y 1, eq_ix2 y⟩
  rw [out0_8_apply, w1_block, w2_block, w3_block, w4a_block, w4b_block, wk_block]
  exact Cert.Spec.msg_row_congr _ _ _ _ _ _ r (fun j => rows_block_apply V c t r j)
    (fun k => Cert.Spec.gate_row_congr _ _ _ _ _ _ _ _ r (fun i => attr_block_apply V c t r i) k) o

/-! ## What a point writes back, the cover, and the array after the last point -/

/-- Point t writes back block t of the output array's function. -/
theorem edge_flushed (t : Fin cfg0.N) :
    (dat0 (F := Ideal) V c).flushed 8 t = ((cfg0.win 8).blk t).view.read (Elt Ideal) (edgeArr V c) := by
  show (cfg0.win 8).cut (grid0.coords t) ((dat0 V c).after 8 t) = _
  rw [after0_8]
  obtain ⟨-, -, -, -, e0, e1, -⟩ := edge_index_facts t
  funext y
  show out0_8 (iblk0 V c 0 t) (iblk0 V c 1 t) (iblk0 V c 2 t) (iblk0 V c 3 t) (iblk0 V c 4 t) (iblk0 V c 5 t)
      (iblk0 V c 6 t) (iblk0 V c 7 t) y = edgeArr V c (((cfg0.win 8).blk t).view.emb y)
  refine (block_value V c t y).trans ?_
  congr 1
  funext a; apply Fin.ext
  match a with
  | ⟨0, _⟩ => show 8000 * t.val + (y 0).val = win0_8.index t (0 : Fin 2) * 8000 + 1 * (y 0).val; omega
  | ⟨1, _⟩ => show (y 1).val = win0_8.index t (1 : Fin 2) * 128 + 1 * (y 1).val; omega

/-- An index of the output array is in point t's block iff each coordinate is in the block's range on its axis. -/
theorem mem_edge_block (t : Fin cfg0.N) (i : S800000x128.Idx) :
    i ∈ ((cfg0.win 8).blk t).view.set ↔ ∀ a : Fin 2, win0_8.index t a * S8000x128.size a ≤ (i a).val ∧ (i a).val < win0_8.index t a * S8000x128.size a + S8000x128.size a := by
  show i ∈ ((View.whole main_v7).slice (win0_8.rect t)).set ↔ _
  rw [View.set_slice_whole, Rect.mem_set_unit]
  exact Iff.rfl

/-- Every index of the output array is in some point's block: row e in point e / 8000's. -/
theorem edge_cover (i : S800000x128.Idx) :
    ∃ t : Fin cfg0.N, (cfg0.win 8).flush t = true ∧ i ∈ ((cfg0.win 8).blk t).view.set := by
  have hi0 : (i 0).val < 800000 := (i 0).isLt
  have hi1 : (i 1).val < 128 := (i 1).isLt
  have hN : cfg0.N = 100 := N_0
  let t : Fin cfg0.N := ⟨(i 0).val / 8000, by omega⟩
  obtain ⟨-, -, -, -, e0, e1, -⟩ := edge_index_facts t
  have ht : t.val = (i 0).val / 8000 := rfl
  refine ⟨t, flush0_8 t, ?_⟩
  rw [mem_edge_block]
  intro a
  match a with
  | ⟨0, _⟩ => show win0_8.index t (0 : Fin 2) * 8000 ≤ (i 0).val ∧ (i 0).val < win0_8.index t (0 : Fin 2) * 8000 + 8000; omega
  | ⟨1, _⟩ => show win0_8.index t (1 : Fin 2) * 128 ≤ (i 1).val ∧ (i 1).val < win0_8.index t (1 : Fin 2) * 128 + 128; omega

/-- After the last point the output array holds, at (e, o), the message of edge e at column o. -/
theorem edge_final (V : (c : Dev nD) → (b : Ref sig .tc) → Buf (Elt Ideal) ((c : Thread nD τ).loc b)) (c : Dev nD) :
    (Gen.dat0 (F := Ideal) V c).arrAt 8 cfg0.N
      = fun i => Cert.Spec.msg (V c main_v6) (V c main_arg7) (Cert.Spec.gate (V c main_arg2) (V c main_arg3) (V c main_arg4) (V c main_arg5) (V c main_v4) (V c main_v5)) (i 0) (i 1) :=
  (dat0 (F := Ideal) V c).arrAt_eq_of_cover 8 (edgeArr V c) (fun t _ => edge_flushed V c t) (edge_cover)

end Cert.KernelIdeal.Edge

end
-- ==== Proof.NodeBlock.lean ====
/-
  The node layer's block, index by index.

  One grid point of the node region holds 10000 node rows. Into its 10000 × 192 output block it writes two
  rectangles: columns 0..127 receive max(h + bk, 0), columns 128..191 receive
  tanh(x · W11 + b11) · tanh(x · W12 + b12). Read back at (r, q) the block is the specification's node output
  of the point's own rows: the two rectangles are the two column ranges of one function of the block index, and
  together they cover every column.
-/
import proofs.«414678_j84086869721473_2_alg».proof.Proof.Spec
import proofs.«414678_j84086869721473_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Node

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- The rectified sum at row r, column o: max(h(r,o) + bk(o), 0); the bias is one row read at column o. -/
theorem pay1_apply (x0 : Vec Ideal S10000x128 .f32) (x1 : Vec Ideal S1x128 .f32) (r : Fin 10000) (o : Fin 128) :
    k1_pay1 (F := Ideal) x0 x1 (ix2 r o) = max (x0 (ix2 r o) + x1 (ix2 0 o)) 0 := by
  unfold k1_pay1
  rw [maximumf_apply, addf_apply, broadcast_apply, shapeCast_self, shapeCast_self]
  rw [broadcastTo_1b_ab_apply]
  rw [show (Scalar.ofBits (F := Ideal) .f32 0x00000000#32 : EReal) = 0 from Ideal.ofBits_zero_f32]

/-! The row-by-matrix product [10000,128] · [128,64] read at (r, c): the sum over the 128 inner coordinates. -/

/-- The left operand's index under output index i and inner index q: row i₀ … -/
theorem lhs_node_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and column q. -/
theorem lhs_node_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's index: row q … -/
theorem rhs_node_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- … and column i₁. -/
theorem rhs_node_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A product into a zero accumulator at (r, c) is Σ_j x(r,j) · w(j,c), the inner index running over Fin 128. -/
theorem matmul_node_apply (x : FVec Ideal S10000x128 .f32) (w : FVec Ideal S128x64 .f32) (r : Fin 10000) (c : Fin 64) :
    matmul dot_S10000x128_S128x64_S10000x64_1_0_0_1_n_n none x w (constant (F := Ideal) S10000x64 .f32 0x00000000#32) (ix2 r c)
      = ∑ j : Fin 128, x (ix2 r j) * w (ix2 j c) := by
  show FloatOps.matmul dot_S10000x128_S128x64_S10000x64_1_0_0_1_n_n none x w (constant (F := Ideal) S10000x64 .f32 0x00000000#32) (ix2 r c) = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 r c) ((contrEquiv1 dot_S10000x128_S128x64_S10000x64_1_0_0_1_n_n 128 rfl rfl).symm k) = ix2 r k := funext fun a => Fin.ext (by
    match a with
    | ⟨0, _⟩ => exact lhs_node_0 _ _
    | ⟨1, _⟩ => exact (lhs_node_1 _ _).trans hk)
  have er : dot_S10000x128_S128x64_S10000x64_1_0_0_1_n_n.rhsIdx (ix2 r c) ((contrEquiv1 dot_S10000x128_S128x64_S10000x64_1_0_0_1_n_n 128 rfl rfl).symm k) = ix2 k c := funext fun a => Fin.ext (by
    match a with
    | ⟨0, _⟩ => exact (rhs_node_0 _ _).trans hk
    | ⟨1, _⟩ => exact rhs_node_1 _ _)
  rw [el, er]

/-- The elementwise branch at row r, column c: tanh(x(r,·)·W11(·,c) + b11(c)) · tanh(x(r,·)·W12(·,c) + b12(c)). -/
theorem pay2_apply (x : Vec Ideal S10000x128 .f32) (w1 w2 : Vec Ideal S128x64 .f32) (b1 b2 : Vec Ideal S1x64 .f32)
    (r : Fin 10000) (c : Fin 64) :
    k1_pay2 (F := Ideal) x w1 w2 b1 b2 (ix2 r c)
      = Ideal.tanh ((∑ j : Fin 128, x (ix2 r j) * w1 (ix2 j c)) + b1 (ix2 0 c))
        * Ideal.tanh ((∑ j : Fin 128, x (ix2 r j) * w2 (ix2 j c)) + b2 (ix2 0 c)) := by
  unfold k1_pay2
  rw [mulf_apply]
  show Ideal.tanh (addf (F := Ideal) (φ := .f32) _ _ (ix2 r c)) * Ideal.tanh (addf (F := Ideal) (φ := .f32) _ _ (ix2 r c)) = _
  rw [addf_apply, addf_apply, matmul_node_apply, matmul_node_apply, shapeCast_self, shapeCast_self,
    broadcastTo_1b_ab_apply, broadcastTo_1b_ab_apply]

/-- The zero offsets, however spelt. -/
theorem hz2 : (![0, 0] : Fin 2 → Nat) = fun _ => 0 := funext fun a => by fin_cases a <;> rfl

section NodeOutCols
variable {N : Nat} (H : Fin N → Fin 128 → EReal) (bk : Fin 128 → EReal) (x : Cert.Spec.Mat N 128) (W11 W12 : Cert.Spec.Mat 128 64)
  (b11 b12 : Fin 64 → EReal)

/-- A column below 128 of the node output is the rectified sum. -/
theorem nodeOut_low (n : Fin N) (c : Fin 192) (o : Fin 128) (h : c.val = o.val) :
    Cert.Spec.nodeOut H bk x W11 W12 b11 b12 n c = max (H n o + bk o) 0 := by
  have hc : c.val < 128 := by have := o.isLt; omega
  have e : (⟨c.val, hc⟩ : Fin 128) = o := Fin.ext h
  unfold Cert.Spec.nodeOut
  rw [dif_pos hc, e]

/-- A column 128 + o of the node output is the elementwise branch at o. -/
theorem nodeOut_high (n : Fin N) (c : Fin 192) (o : Fin 64) (h : c.val = 128 + o.val) :
    Cert.Spec.nodeOut H bk x W11 W12 b11 b12 n c = Cert.Spec.elem x W11 W12 b11 b12 n o := by
  have hc : ¬ c.val < 128 := by omega
  unfold Cert.Spec.nodeOut
  rw [dif_neg hc]
  congr 1
  exact Fin.ext (by show c.val - 128 = o.val; omega)

end NodeOutCols

/-- The output block read at (r, q): the node output of the block's rows — H the first input block, bk the first
    bias row, x the second input block, W11 and W12 the two matrices, b11 and b12 their bias rows. -/
theorem out1_A_7_apply (c : Dev nD) (i : grid1.Coords) (arg1 : Memref sig .tc .vmem S10000x128 .f32) (harg1 : arg1.IsWhole) (arg2 : Memref sig .tc .vmem S1x128 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x192 .f32) (harg8 : arg8.IsWhole)
    (x0 : Vec Ideal S10000x128 .f32) (x1 : Vec Ideal S1x128 .f32) (x2 : Vec Ideal S10000x128 .f32) (x3 : Vec Ideal S128x64 .f32) (x4 : Vec Ideal S1x64 .f32) (x5 : Vec Ideal S128x64 .f32) (x6 : Vec Ideal S1x64 .f32) (r : Fin 10000) (q : Fin 192) :
    Gen.out1_A_7 (F := Ideal) c i arg1 harg1 arg2 harg2 arg3 harg3 arg4 harg4 arg5 harg5 arg6 harg6 arg7 harg7 arg8 harg8 x0 x1 x2 x3 x4 x5 x6 (ix2 r q)
      = Cert.Spec.nodeOut (fun n o => x0 (ix2 n o)) (fun o => x1 (ix2 0 o)) x2 x3 x5 (fun o => x4 (ix2 0 o)) (fun o => x6 (ix2 0 o)) r q := by
  unfold out1_A_7
  rw [View.read_writes_eq_canon _ _ _ (cover1_A_7 (F := Ideal) c i arg1 harg1 arg2 harg2 arg3 harg3 arg4 harg4 arg5 harg5 arg6 harg6 arg7 harg7 arg8 harg8 x0 x1 x2 x3 x4 x5 x6)]
  unfold kernelRun1_A
  dsimp only
  sl_unfold_words
  simp only [View.readAt_eq_ld, harg1.read_unread, harg2.read_unread, harg3.read_unread, harg4.read_unread, harg5.read_unread, harg6.read_unread, harg7.read_unread,
    View.ld_unit_zero (S := S10000x128) hz2, View.ld_unit_zero (S := S1x128) hz2, View.ld_unit_zero (S := S128x64) hz2, View.ld_unit_zero (S := S1x64) hz2]
  refine View.canon_apply_of_pieces (Val := Elt Ideal) (S := S10000x192) (e := .f32)
    (fun y : S10000x192.Idx => Cert.Spec.nodeOut (fun n o => x0 (ix2 n o)) (fun o => x1 (ix2 0 o)) x2 x3 x5 (fun o => x4 (ix2 0 o)) (fun o => x6 (ix2 0 o)) (y 0) (y 1))
    _ ?_ (ix2 r q) ?_
  · -- each rectangle's contents at its own index (p, o) are the node output at the block index beneath: (p, 128 + o) or (p, o)
    intro pc hpc x
    rcases List.mem_cons.mp hpc with rfl | hpc
    · obtain ⟨p, o, rfl⟩ : ∃ (p : Fin 10000) (o : Fin 64), x = ix2 p o := ⟨x 0, x 1, eq_ix2 x⟩
      have hrow : ((Rect.unit (s := S10000x192) ![0, 128] ![10000, 64] inb_S10000x192_S10000x64_0_128).emb (ix2 p o) 0 : Fin 10000) = p :=
        Fin.ext (by show 0 + 1 * p.val = p.val; omega)
      have hcol : ((Rect.unit (s := S10000x192) ![0, 128] ![10000, 64] inb_S10000x192_S10000x64_0_128).emb (ix2 p o) 1 : Fin 192).val = 128 + o.val := by
        show 128 + 1 * o.val = 128 + o.val; omega
      show k1_pay2 (F := Ideal) x2 x3 x5 x4 x6 (ix2 p o) = _
      rw [pay2_apply]
      refine Eq.trans ?_ (nodeOut_high (fun n o => x0 (ix2 n o)) (fun o => x1 (ix2 0 o)) x2 x3 x5 (fun o => x4 (ix2 0 o)) (fun o => x6 (ix2 0 o)) _ _ o hcol).symm
      rw [hrow]
      rfl
    rcases List.mem_cons.mp hpc with rfl | hpc
    · obtain ⟨p, o, rfl⟩ : ∃ (p : Fin 10000) (o : Fin 128), x = ix2 p o := ⟨x 0, x 1, eq_ix2 x⟩
      have hrow : ((Rect.unit (s := S10000x192) ![0, 0] ![10000, 128] inb_S10000x192_S10000x128_0_0).emb (ix2 p o) 0 : Fin 10000) = p :=
        Fin.ext (by show 0 + 1 * p.val = p.val; omega)
      have hcol : ((Rect.unit (s := S10000x192) ![0, 0] ![10000, 128] inb_S10000x192_S10000x128_0_0).emb (ix2 p o) 1 : Fin 192).val = o.val := by
        show 0 + 1 * o.val = o.val; omega
      show k1_pay1 (F := Ideal) x0 x1 (ix2 p o) = _
      rw [pay1_apply]
      refine Eq.trans ?_ (nodeOut_low (fun n o => x0 (ix2 n o)) (fun o => x1 (ix2 0 o)) x2 x3 x5 (fun o => x4 (ix2 0 o)) (fun o => x6 (ix2 0 o)) _ _ o hcol).symm
      rw [hrow]
    nomatch hpc
  · -- a column below 128 lies in the left rectangle, any other in the right one
    have hr : r.val < 10000 := r.isLt
    have hq : q.val < 192 := q.isLt
    by_cases h : q.val < 128
    · refine ⟨_, List.mem_cons_of_mem _ List.mem_cons_self, ?_⟩
      rw [Rect.mem_set_unit]
      intro a
      match a with
      | ⟨0, _⟩ => show 0 ≤ r.val ∧ r.val < 0 + 10000; omega
      | ⟨1, _⟩ => show 0 ≤ q.val ∧ q.val < 0 + 128; omega
    · refine ⟨_, List.mem_cons_self, ?_⟩
      rw [Rect.mem_set_unit]
      intro a
      match a with
      | ⟨0, _⟩ => show 0 ≤ r.val ∧ r.val < 0 + 10000; omega
      | ⟨1, _⟩ => show 128 ≤ q.val ∧ q.val < 128 + 64; omega

end Cert.KernelIdeal.Node

end
-- ==== Proof.NodeArray.lean ====
/-
  From blocks to the array, for the node stage.

  The node stage runs over five grid points. Point t reads rows 10000·t … 10000·t + 9999 of H (the aggregated
  messages) and of x (the node features), the whole bias row, the two whole 128 × 64 matrices and their two bias
  rows, and writes rows 10000·t … 10000·t + 9999 of the [50000 × 192] output. The node output at a row depends on
  that row of H and of x only (nodeOut_congr), so what point t writes back is block t of ONE function of the whole
  arrays: the node output index by index (flushed7_eq). Row n lies in the block of point n / 10000 (cover7), the five
  blocks cover the array, and the array ends holding that function (node_final).
-/
import proofs.«414678_j84086869721473_2_alg».proof.Proof.NodeBlock
import proofs.«414678_j84086869721473_2_alg».proof.Proof.Gen.KernelIdeal.Frame
import proofs.«414678_j84086869721473_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.ValueIdx Idealize.SL.Sem
open Idealize.ShloMosaic.Pipeline (Dat)

/-! ## The node output depends on one row of H and one row of x -/

/-- The node output at row n of (H, x) is the node output at row r of (H', x') when those rows agree and the other
    arguments are equal. -/
theorem nodeOut_congr {N N' : Nat} (H : Fin N → Fin 128 → EReal) (H' : Fin N' → Fin 128 → EReal) (bk bk' : Fin 128 → EReal)
    (x : Cert.Spec.Mat N 128) (x' : Cert.Spec.Mat N' 128) (W11 W11' W12 W12' : Cert.Spec.Mat 128 64) (b11 b11' b12 b12' : Fin 64 → EReal)
    (n : Fin N) (r : Fin N') (hH : ∀ o, H' r o = H n o) (hx : ∀ j, x' (ix2 r j) = x (ix2 n j))
    (hbk : bk' = bk) (hW11 : W11' = W11) (hW12 : W12' = W12) (hb11 : b11' = b11) (hb12 : b12' = b12) (q : Fin 192) :
    Cert.Spec.nodeOut H' bk' x' W11' W12' b11' b12' r q = Cert.Spec.nodeOut H bk x W11 W12 b11 b12 n q := by
  subst hbk hW11 hW12 hb11 hb12
  unfold Cert.Spec.nodeOut Cert.Spec.elem
  split
  · rw [hH]
  · simp only [hx]

/-! ## The windows' blocks as rows of their arrays -/

/-- The printed index maps over the five grid points: the three row-blocked windows are at block (t, 0), the five
    whole-array windows at block (0, 0). -/
theorem idx_facts : ∀ t : Fin cfg1.N,
    win1_0.index t (0 : Fin 2) = t.val ∧ win1_0.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

section Blocks
variable (V : (c : Dev nD) → (b : Ref sig .tc) → Buf (Elt Ideal) ((c : Thread nD τ).loc b))

/-- Window 0's block at point t is rows 10000·t … 10000·t + 9999 of H. -/
theorem blk0_apply (c : Dev nD) (t : Fin cfg1.N) (y : S10000x128.Idx) (k : S50000x128.Idx)
    (hk0 : (k 0).val = 10000 * t.val + (y 0).val) (hk1 : (k 1).val = (y 1).val) :
    (iblk1 (F := Ideal) V c 0 t : Vec Ideal S10000x128 .f32) y = (V c main_v10 : S50000x128.Idx → EReal) k := by
  obtain ⟨e0, e1, -⟩ := idx_facts t
  unfold iblk1
  rw [View.read_apply]
  show (V c main_v10 : S50000x128.Idx → EReal) _ = V c main_v10 k
  congr 1
  funext a
  apply Fin.ext
  match a with
  | ⟨0, _⟩ => show win1_0.index t 0 * 10000 + 1 * (y 0).val = (k 0).val; rw [e0, hk0]; omega
  | ⟨1, _⟩ => show win1_0.index t 1 * 128 + 1 * (y 1).val = (k 1).val; rw [e1, hk1]; omega

/-- Window 2's block at point t is rows 10000·t … 10000·t + 9999 of x. -/
theorem blk2_apply (c : Dev nD) (t : Fin cfg1.N) (y : S10000x128.Idx) (k : S50000x128.Idx)
    (hk0 : (k 0).val = 10000 * t.val + (y 0).val) (hk1 : (k 1).val = (y 1).val) :
    (iblk1 (F := Ideal) V c 2 t : Vec Ideal S10000x128 .f32) y = (V c main_arg0 : S50000x128.Idx → EReal) k := by
  obtain ⟨-, -, e0, e1, -⟩ := idx_facts t
  unfold iblk1
  rw [View.read_apply]
  show (V c main_arg0 : S50000x128.Idx → EReal) _ = V c main_arg0 k
  congr 1
  funext a
  apply Fin.ext
  match a with
  | ⟨0, _⟩ => show win1_2.index t 0 * 10000 + 1 * (y 0).val = (k 0).val; rw [e0, hk0]; omega
  | ⟨1, _⟩ => show win1_2.index t 1 * 128 + 1 * (y 1).val = (k 1).val; rw [e1, hk1]; omega

/-- The whole-array windows' blocks are their arrays. -/
theorem blk1_eq (c : Dev nD) (t : Fin cfg1.N) :
    (iblk1 (F := Ideal) V c 1 t : Vec Ideal S1x128 .f32) = (V c main_v11 : S1x128.Idx → EReal) := by
  obtain ⟨-, -, -, -, -, -, e0, e1, -⟩ := idx_facts t
  funext y
  unfold iblk1
  rw [View.read_apply]
  show (V c main_v11 : S1x128.Idx → EReal) _ = V c main_v11 y
  congr 1
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega

theorem blk3_eq (c : Dev nD) (t : Fin cfg1.N) :
    (iblk1 (F := Ideal) V c 3 t : Vec Ideal S128x64 .f32) = (V c main_arg9 : S128x64.Idx → EReal) := by
  obtain ⟨-, -, -, -, -, -, -, -, e0, e1, -⟩ := idx_facts t
  funext y
  unfold iblk1
  rw [View.read_apply]
  show (V c main_arg9 : S128x64.Idx → EReal) _ = V c main_arg9 y
  congr 1
  funext a
  apply Fin.ext
  match a with
  | ⟨0, _⟩ => show win1_3.index t 0 * 128 + 1 * (y 0).val = (y 0).val; rw [e0]; omega
  | ⟨1, _⟩ => show win1_3.index t 1 * 64 + 1 * (y 1).val = (y 1).val; rw [e1]; omega

theorem blk4_eq (c : Dev nD) (t : Fin cfg1.N) :
    (iblk1 (F := Ideal) V c 4 t : Vec Ideal S1x64 .f32) = (V c main_v12 : S1x64.Idx → EReal) := by
  obtain ⟨-, -, -, -, -, -, -, -, -, -, e0, e1, -⟩ := idx_facts t
  funext y
  unfold iblk1
  rw [View.read_apply]
  show (V c main_v12 : S1x64.Idx → EReal) _ = V c main_v12 y
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

theorem blk5_eq (c : Dev nD) (t : Fin cfg1.N) :
    (iblk1 (F := Ideal) V c 5 t : Vec Ideal S128x64 .f32) = (V c main_arg11 : S128x64.Idx → EReal) := by
  obtain ⟨-, -, -, -, -, -, -, -, -, -, -, -, e0, e1, -⟩ := idx_facts t
  funext y
  unfold iblk1
  rw [View.read_apply]
  show (V c main_arg11 : S128x64.Idx → EReal) _ = V c main_arg11 y
  congr 1
  funext a
  apply Fin.ext
  match a with
  | ⟨0, _⟩ => show win1_5.index t 0 * 128 + 1 * (y 0).val = (y 0).val; rw [e0]; omega
  | ⟨1, _⟩ => show win1_5.index t 1 * 64 + 1 * (y 1).val = (y 1).val; rw [e1]; omega

theorem blk6_eq (c : Dev nD) (t : Fin cfg1.N) :
    (iblk1 (F := Ideal) V c 6 t : Vec Ideal S1x64 .f32) = (V c main_v13 : S1x64.Idx → EReal) := by
  obtain ⟨-, -, -, -, -, -, -, -, -, -, -, -, -, -, e0, e1⟩ := idx_facts t
  funext y
  unfold iblk1
  rw [View.read_apply]
  show (V c main_v13 : S1x64.Idx → EReal) _ = V c main_v13 y
  congr 1
  funext a
  apply Fin.ext
  match a with
  | ⟨0, _⟩ => show win1_6.index t 0 * 1 + 1 * (y 0).val = (y 0).val; rw [e0]; omega
  | ⟨1, _⟩ => show win1_6.index t 1 * 64 + 1 * (y 1).val = (y 1).val; rw [e1]; omega

/-! ## From blocks to the array -/

/-- The node output of the whole arrays, index by index. -/
abbrev G (c : Dev nD) : S50000x192.Idx → EReal := fun i =>
  Cert.Spec.nodeOut (fun n o => V c main_v10 (ix2 n o)) (fun o => V c main_v11 (ix2 0 o)) (V c main_arg0) (V c main_arg9)
    (V c main_arg11) (fun o => V c main_v12 (ix2 0 o)) (fun o => V c main_v13 (ix2 0 o)) (i 0) (i 1)

/-- The node output of the blocks at point t, at row r of the block, is the node output of the arrays at row 10000·t + r. -/
theorem G_at (c : Dev nD) (t : Fin cfg1.N) (r : Fin 10000) (q : Fin 192) (i : S50000x192.Idx)
    (hi0 : (i 0).val = 10000 * t.val + r.val) (hi1 : (i 1).val = q.val) :
    Cert.Spec.nodeOut (fun n o => (iblk1 (F := Ideal) V c 0 t : Vec Ideal S10000x128 .f32) (ix2 n o))
        (fun o => (iblk1 (F := Ideal) V c 1 t : Vec Ideal S1x128 .f32) (ix2 0 o))
        (iblk1 (F := Ideal) V c 2 t : Vec Ideal S10000x128 .f32) (iblk1 (F := Ideal) V c 3 t : Vec Ideal S128x64 .f32)
        (iblk1 (F := Ideal) V c 5 t : Vec Ideal S128x64 .f32)
        (fun o => (iblk1 (F := Ideal) V c 4 t : Vec Ideal S1x64 .f32) (ix2 0 o))
        (fun o => (iblk1 (F := Ideal) V c 6 t : Vec Ideal S1x64 .f32) (ix2 0 o)) r q
      = G V c i := by
  have hq : i 1 = q := Fin.ext hi1
  show _ = Cert.Spec.nodeOut _ _ _ _ _ _ _ (i 0) (i 1)
  rw [hq]
  exact nodeOut_congr _ _ _ _ _ _ _ _ _ _ _ _ _ _ (i 0) r
    (fun o => blk0_apply V c t (ix2 r o) (ix2 (i 0) o) hi0 rfl)
    (fun j => blk2_apply V c t (ix2 r j) (ix2 (i 0) j) hi0 rfl)
    (funext fun o => congrFun (blk1_eq V c t) (ix2 0 o)) (blk3_eq V c t) (blk5_eq V c t)
    (funext fun o => congrFun (blk4_eq V c t) (ix2 0 o)) (funext fun o => congrFun (blk6_eq V c t) (ix2 0 o)) q

/-- What point t writes back is block t of the node output of the arrays. -/
theorem flushed7_eq (c : Dev nD) (t : Fin cfg1.N) :
    (dat1 (F := Ideal) V c).flushed 7 t = ((cfg1.win 7).blk t).view.read (Elt Ideal) (G V c) := by
  obtain ⟨-, -, -, -, e0, e1, -⟩ := idx_facts t
  show (cfg1.win 7).cut (grid1.coords t) ((dat1 V c).after 7 t) = _
  rw [after1_7]
  unfold outsAt1
  funext y
  rw [View.read_apply]
  have hx : ((cfg1.win 7).xinj (grid1.coords t) y : S10000x192.Idx) = ix2 (⟨(y 0).val, (y 0).isLt⟩ : Fin 10000) (⟨(y 1).val, (y 1).isLt⟩ : Fin 192) := by
    funext a
    match a with
    | ⟨0, _⟩ => rfl
    | ⟨1, _⟩ => rfl
  show out1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t) ((cfg1.win 7).xinj (grid1.coords t) y)
    = G V c (((cfg1.win 7).blk t).view.emb y)
  refine (congrArg (out1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)) hx).trans ?_
  refine (out1_A_7_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t) ⟨(y 0).val, (y 0).isLt⟩ ⟨(y 1).val, (y 1).isLt⟩).trans ?_
  refine G_at V c t ⟨(y 0).val, (y 0).isLt⟩ ⟨(y 1).val, (y 1).isLt⟩ _ ?_ ?_
  · show win1_7.index t 0 * 10000 + 1 * (y 0).val = 10000 * t.val + (y 0).val
    rw [e0]; omega
  · show win1_7.index t 1 * 192 + 1 * (y 1).val = (y 1).val
    rw [e1]; omega

/-- An index of the array is in point t's block iff each coordinate is in the block's range on its axis. -/
theorem mem_blk7 (t : Fin cfg1.N) (i : S50000x192.Idx) :
    i ∈ ((cfg1.win 7).blk t).view.set ↔ ∀ a : Fin 2, win1_7.index t a * S10000x192.size a ≤ (i a).val ∧ (i a).val < win1_7.index t a * S10000x192.size a + S10000x192.size a := by
  show i ∈ ((View.whole main_v14).slice (win1_7.rect t)).set ↔ _
  rw [View.set_slice_whole, Rect.mem_set_unit]
  exact Iff.rfl

/-- Row n of the array is in the block of point n / 10000. -/
theorem cover7 (i : S50000x192.Idx) : ∃ t : Fin cfg1.N, (cfg1.win 7).flush t = true ∧ i ∈ ((cfg1.win 7).blk t).view.set := by
  have hi0 : (i 0).val < 50000 := (i 0).isLt
  have hi1 : (i 1).val < 192 := (i 1).isLt
  have hN : cfg1.N = 5 := N_1
  refine ⟨⟨(i 0).val / 10000, by rw [hN]; omega⟩, flush1_7 _, ?_⟩
  rw [mem_blk7]
  obtain ⟨-, -, -, -, e0, e1, -⟩ := idx_facts ⟨(i 0).val / 10000, by rw [hN]; omega⟩
  intro a
  match a with
  | ⟨0, _⟩ =>
    show win1_7.index _ 0 * 10000 ≤ (i 0).val ∧ (i 0).val < win1_7.index _ 0 * 10000 + 10000
    rw [e0]; show (i 0).val / 10000 * 10000 ≤ (i 0).val ∧ (i 0).val < (i 0).val / 10000 * 10000 + 10000; omega
  | ⟨1, _⟩ =>
    show win1_7.index _ 1 * 192 ≤ (i 1).val ∧ (i 1).val < win1_7.index _ 1 * 192 + 192
    rw [e1]; omega

end Blocks

/-- THE ARRAY after the region: the node output of the arrays the region finds, index by index. -/
theorem node_final (V : (c : Dev nD) → (b : Ref sig .tc) → Buf (Elt Ideal) ((c : Thread nD τ).loc b)) (c : Dev nD) :
    (Gen.dat1 (F := Ideal) V c).arrAt 7 cfg1.N
      = fun i => Cert.Spec.nodeOut (fun n o => V c main_v10 (ix2 n o)) (fun o => V c main_v11 (ix2 0 o)) (V c main_arg0) (V c main_arg9) (V c main_arg11) (fun o => V c main_v12 (ix2 0 o)) (fun o => V c main_v13 (ix2 0 o)) (i 0) (i 1) :=
  (dat1 (F := Ideal) V c).arrAt_eq_of_cover 7 (G V c) (fun t _ => flushed7_eq V c t) cover7

end Cert.KernelIdeal.Node

end
-- ==== Proof.HostK.lean ====
/-
  What the host operations of the kernel program leave in the buffers the two kernels read.

  Before the first kernel: the two rows of the edge table as vectors (sources, destinations), the mixing matrix cut
  into its upper and lower 64 rows, and the gathered node rows xs(e) = x(src e) — with a negative index wrapped by
  the row count, and a row whose wrapped index falls outside 0..49999 filled with a quiet NaN.
  Before the second kernel: the scatter-add of the first kernel's output rows into a zero array along the
  destinations, and the three bias vectors as one-row matrices. Every argument no operation writes is as launched.
-/
import proofs.«414678_j84086869721473_2_alg».proof.Proof.Gen.KernelIdeal.Frame
import proofs.«414678_j84086869721473_2_alg».proof.Proof.Spec
import Idealize.ShloMosaic.Lib.ValueIdx
import Idealize.ShloMosaic.Lib.ValueLayout

set_option maxRecDepth 16384

noncomputable section

namespace Cert.KernelIdeal.HostK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## The edge table's rows, the wrapped index, the range mask, the gathered rows -/

/-- Row 0 of the edge table as a vector: the source of each edge. -/
def srcVec (ei : IVec S2x800000 32) : IVec S800000 32 :=
  shapeCast S800000 (extractStridedSlice S1x800000 ![0, 0] ei slices_S2x800000_S1x800000_0_0) shapeCasts_S1x800000_S800000

/-- Row 1 of the edge table as a vector: the destination of each edge. -/
def dstVec (ei : IVec S2x800000 32) : IVec S800000 32 :=
  shapeCast S800000 (extractStridedSlice S1x800000 ![1, 0] ei slices_S2x800000_S1x800000_1_0) shapeCasts_S1x800000_S800000

/-- A negative index wrapped by the row count 50000, as a column. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The range test 0 ≤ idx ≤ 49999 of each edge, spread over the 128 columns. -/
def takeMask (idx : IVec S800000x1 32) : IVec S800000x128 1 :=
  broadcastInDim S800000x128 ![0] bcast_S800000_S800000x128_0
    (Host.reduce IntOp.andi
      (andi (cmpi .sge idx (broadcastInDim S800000x1 ![] bcast_S_S800000x1 (constantI S_ 32 0#32)))
        (cmpi .sle idx (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The gathered node rows: row e is x's row at the wrapped source of e where that is in range, a quiet NaN elsewhere. -/
def xsK (x : FVec Ideal S50000x128 .f32) (ei : IVec S2x800000 32) : FVec Ideal S800000x128 .f32 :=
  select (takeMask (wrapIdx (srcVec ei)))
    (Host.gather gather_S50000x128_S800000x1_S800000x128_1_0_n_n_0_1_1128 x (wrapIdx (srcVec ei)))
    (broadcastInDim S800000x128 ![] bcast_S_S800000x128 (constant (F := Ideal) S_ .f32 0x7FC00000#32))

/-- A buffer none of a stretch's operations writes keeps its contents: the operations' result buffers are told apart
    from the reference one by one. -/
local macro "keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## Region 0's entry: the arguments nothing writes -/

theorem V2_arg2 (c : Dev nD) : Gen.V2 m ρ c main_arg2 = m ((c : Thread nD τ).loc main_arg2) :=
  calc Gen.V2 m ρ c main_arg2
    _ = W1 m ρ c (Proc.devRef .tc main_arg2) := by keeps hostOps0_1
    _ = W0 m ρ c (Proc.devRef .tc main_arg2) := by keeps hostOps0
    _ = m ((c : Thread nD τ).loc main_arg2) := rfl
theorem V2_arg3 (c : Dev nD) : Gen.V2 m ρ c main_arg3 = m ((c : Thread nD τ).loc main_arg3) :=
  calc Gen.V2 m ρ c main_arg3
    _ = W1 m ρ c (Proc.devRef .tc main_arg3) := by keeps hostOps0_1
    _ = W0 m ρ c (Proc.devRef .tc main_arg3) := by keeps hostOps0
    _ = m ((c : Thread nD τ).loc main_arg3) := rfl
theorem V2_arg4 (c : Dev nD) : Gen.V2 m ρ c main_arg4 = m ((c : Thread nD τ).loc main_arg4) :=
  calc Gen.V2 m ρ c main_arg4
    _ = W1 m ρ c (Proc.devRef .tc main_arg4) := by keeps hostOps0_1
    _ = W0 m ρ c (Proc.devRef .tc main_arg4) := by keeps hostOps0
    _ = m ((c : Thread nD τ).loc main_arg4) := rfl
theorem V2_arg5 (c : Dev nD) : Gen.V2 m ρ c main_arg5 = m ((c : Thread nD τ).loc main_arg5) :=
  calc Gen.V2 m ρ c main_arg5
    _ = W1 m ρ c (Proc.devRef .tc main_arg5) := by keeps hostOps0_1
    _ = W0 m ρ c (Proc.devRef .tc main_arg5) := by keeps hostOps0
    _ = m ((c : Thread nD τ).loc main_arg5) := rfl
theorem V2_arg7 (c : Dev nD) : Gen.V2 m ρ c main_arg7 = m ((c : Thread nD τ).loc main_arg7) :=
  calc Gen.V2 m ρ c main_arg7
    _ = W1 m ρ c (Proc.devRef .tc main_arg7) := by keeps hostOps0_1
    _ = W0 m ρ c (Proc.devRef .tc main_arg7) := by keeps hostOps0
    _ = m ((c : Thread nD τ).loc main_arg7) := rfl

/-! ## The mixing matrix's halves -/

/-- The block of 64 rows at row offset 0 is the upper half. -/
theorem slice_upper (W : Cert.Spec.Mat 128 8) :
    extractStridedSlice S64x8 ![0, 0] W slices_S128x8_S64x8_0_0 = Cert.Spec.upper W := by
  funext i
  obtain ⟨p, q, rfl⟩ : ∃ (p : Fin 64) (q : Fin 8), i = ix2 p q := ⟨i 0, i 1, eq_ix2 i⟩
  exact slice2_axis0_apply 0 W slices_S128x8_S64x8_0_0 p q ⟨p.val, by omega⟩ (Nat.zero_add _).symm

/-- The block of 64 rows at row offset 64 is the lower half. -/
theorem slice_lower (W : Cert.Spec.Mat 128 8) :
    extractStridedSlice S64x8 ![64, 0] W slices_S128x8_S64x8_64_0 = Cert.Spec.lower W := by
  funext i
  obtain ⟨p, q, rfl⟩ : ∃ (p : Fin 64) (q : Fin 8), i = ix2 p q := ⟨i 0, i 1, eq_ix2 i⟩
  exact slice2_axis0_apply 64 W slices_S128x8_S64x8_64_0 p q ⟨64 + p.val, by omega⟩ rfl

theorem V2_v4 (c : Dev nD) : Gen.V2 m ρ c main_v4 = Cert.Spec.upper (m ((c : Thread nD τ).loc main_arg6)) := by
  rw [← slice_upper]
  show StableHlo.after hostOps0_1 (StableHlo.after hostOps0 _) (Proc.devRef .tc main_v4) = _
  after_results
theorem V2_v5 (c : Dev nD) : Gen.V2 m ρ c main_v5 = Cert.Spec.lower (m ((c : Thread nD τ).loc main_arg6)) := by
  rw [← slice_lower]
  show StableHlo.after hostOps0_1 (StableHlo.after hostOps0 _) (Proc.devRef .tc main_v5) = _
  after_results

/-! ## The gathered rows -/

section Abstract
variable {F : FTy → Type} [FloatOps F]

/-- Contents carried to a buffer's own type and back are the contents. -/
theorem ofBuf_toBuf {T : BufTy} {Val : EltTy → Type} (r : Ref sig .tc) (h h' : r.ty = T) (a a') (b b') (v : T.Contents Val) :
    (StableHlo.TRef.of r h a b).ofBuf ((StableHlo.TRef.of r h' a' b').toBuf v) = v := by
  subst h; rfl

/-- The gathered rows over the source vector, at any float family. -/
def xsOf (x : FVec F S50000x128 .f32) (s : IVec S800000 32) : FVec F S800000x128 .f32 :=
  select (takeMask (wrapIdx s))
    (Host.gather gather_S50000x128_S800000x1_S800000x128_1_0_n_n_0_1_1128 x (wrapIdx s))
    (broadcastInDim S800000x128 ![] bcast_S_S800000x128 (constant (F := F) S_ .f32 0x7FC00000#32))

/-- The index-taking stretch, from any contents: its result buffer holds the gathered rows of the node array over
    the source vector. -/
theorem take_after (V : Valuation τ sig (Elt F)) :
    StableHlo.after hostOps0_1 V (Proc.devRef .tc main_v6)
      = (xsOf (V (Proc.devRef .tc main_arg0)) (V (Proc.devRef .tc main_v1)) : FVec F S800000x128 .f32) := by
  after_results_simp
  simp only [ofBuf_toBuf]
  have e1 : ∀ p1 p2 p3, (StableHlo.TRef.of main_v1 p1 p2 p3).ofBuf (V (Proc.devRef .tc main_v1))
      = (V (Proc.devRef .tc main_v1) : IVec S800000 32) := fun _ _ _ => rfl
  have e0 : ∀ p1 p2 p3, (StableHlo.TRef.of main_arg0 p1 p2 p3).ofBuf (V (Proc.devRef .tc main_arg0))
      = (V (Proc.devRef .tc main_arg0) : FVec F S50000x128 .f32) := fun _ _ _ => rfl
  have e6 : ∀ (p1 : main_v6.ty = (⟨S800000x128, .f32⟩ : BufTy)) p2 p3 (v : (⟨S800000x128, .f32⟩ : BufTy).Contents (Elt F)),
      (StableHlo.TRef.of main_v6 p1 p2 p3).toBuf v = v := fun _ _ _ _ => rfl
  rw [e6]
  simp only [e1, e0]
  unfold xsOf takeMask wrapIdx
  rfl

end Abstract

/-- The source vector after the first stretch. -/
theorem W1_v1 (c : Dev nD) : W1 m ρ c (Proc.devRef .tc main_v1) = srcVec (m ((c : Thread nD τ).loc main_arg1)) := by
  show StableHlo.after hostOps0 _ (Proc.devRef .tc main_v1) = _
  after_results
  rfl

/-- The node array after the first stretch. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by keeps hostOps0
    _ = m ((c : Thread nD τ).loc main_arg0) := rfl

theorem V2_v6 (c : Dev nD) :
    Gen.V2 m ρ c main_v6 = xsK (m ((c : Thread nD τ).loc main_arg0)) (m ((c : Thread nD τ).loc main_arg1)) := by
  refine (take_after (W1 m ρ c)).trans ?_
  rw [W1_v1, W1_arg0]
  unfold xsOf xsK
  rfl

end Cert.KernelIdeal.HostK

end
-- ==== Proof.HostK4.lean ====
/-
  What the host operations between the two kernels leave in the buffers the second kernel reads.

  The scatter-add of the first kernel's output rows into a zero array along the destination column (row 1 of the
  edge table, as launched); the three bias vectors as one-row matrices; and the arguments no operation writes,
  as launched. Also the two rows of the edge table read at an edge.
-/
import proofs.«414678_j84086869721473_2_alg».proof.Proof.HostK
import proofs.«414678_j84086869721473_2_alg».proof.Proof.Spec
import Idealize.ShloMosaic.Lib.ValueIdx
import Idealize.ShloMosaic.Lib.ValueLayout

set_option maxRecDepth 16384

noncomputable section

namespace Cert.KernelIdeal.HostK4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.HostK

variable (m : (ℓ : Loc nD τ sig) → Buf (Elt Ideal) ℓ) (ρ : Dev nD → PrngReg)

/-! ## A buffer no operation of a stretch writes keeps its contents -/

/-- Decides, operation by operation, that a stretch of host operations does not write a reference. -/
local macro "no_op_writes" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Through the first stretch. -/
theorem W1_keep (c : Dev nD) (b : Ref sig .tc)
    (h : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem (b := Proc.devRef .tc b) _ _ h).trans rfl

/-- Through the second stretch. -/
theorem W2_keep (c : Dev nD) (b : Ref sig .tc)
    (h : ∀ op ∈ (hostOps0_1 : List (HloOp τ sig (Elt Ideal))), (Proc.devRef .tc b : DevRef τ sig) ∉ op.writes) :
    W2 m ρ c (Proc.devRef .tc b) = W1 m ρ c (Proc.devRef .tc b) :=
  StableHlo.after_of_forall_not_mem (b := Proc.devRef .tc b) _ _ h

/-- Through the stretch between the two kernels. -/
theorem W4_keep (c : Dev nD) (b : Ref sig .tc)
    (h : ∀ op ∈ (hostOps1 : List (HloOp τ sig (Elt Ideal))), (Proc.devRef .tc b : DevRef τ sig) ∉ op.writes) :
    W4 m ρ c (Proc.devRef .tc b) = W3 m ρ c (Proc.devRef .tc b) :=
  StableHlo.after_of_forall_not_mem (b := Proc.devRef .tc b) _ _ h

theorem W3_arg8 (c : Dev nD) : W3 m ρ c (Proc.devRef .tc main_arg8) = m ((c : Thread nD τ).loc main_arg8) :=
  (W3_of_ne m ρ c main_arg8 (by decide)).trans
    ((W2_keep m ρ c main_arg8 (by no_op_writes hostOps0_1)).trans (W1_keep m ρ c main_arg8 (by no_op_writes hostOps0)))

theorem W3_arg10 (c : Dev nD) : W3 m ρ c (Proc.devRef .tc main_arg10) = m ((c : Thread nD τ).loc main_arg10) :=
  (W3_of_ne m ρ c main_arg10 (by decide)).trans
    ((W2_keep m ρ c main_arg10 (by no_op_writes hostOps0_1)).trans (W1_keep m ρ c main_arg10 (by no_op_writes hostOps0)))

theorem W3_arg12 (c : Dev nD) : W3 m ρ c (Proc.devRef .tc main_arg12) = m ((c : Thread nD τ).loc main_arg12) :=
  (W3_of_ne m ρ c main_arg12 (by decide)).trans
    ((W2_keep m ρ c main_arg12 (by no_op_writes hostOps0_1)).trans (W1_keep m ρ c main_arg12 (by no_op_writes hostOps0)))

/-! ## The arguments the second kernel reads as launched -/

theorem V4_arg0 (c : Dev nD) : Gen.V4 m ρ c main_arg0 = m ((c : Thread nD τ).loc main_arg0) :=
  (W4_keep m ρ c main_arg0 (by no_op_writes hostOps1)).trans ((W3_of_ne m ρ c main_arg0 (by decide)).trans
    ((W2_keep m ρ c main_arg0 (by no_op_writes hostOps0_1)).trans (W1_keep m ρ c main_arg0 (by no_op_writes hostOps0))))

theorem V4_arg9 (c : Dev nD) : Gen.V4 m ρ c main_arg9 = m ((c : Thread nD τ).loc main_arg9) :=
  (W4_keep m ρ c main_arg9 (by no_op_writes hostOps1)).trans ((W3_of_ne m ρ c main_arg9 (by decide)).trans
    ((W2_keep m ρ c main_arg9 (by no_op_writes hostOps0_1)).trans (W1_keep m ρ c main_arg9 (by no_op_writes hostOps0))))

theorem V4_arg11 (c : Dev nD) : Gen.V4 m ρ c main_arg11 = m ((c : Thread nD τ).loc main_arg11) :=
  (W4_keep m ρ c main_arg11 (by no_op_writes hostOps1)).trans ((W3_of_ne m ρ c main_arg11 (by decide)).trans
    ((W2_keep m ρ c main_arg11 (by no_op_writes hostOps0_1)).trans (W1_keep m ρ c main_arg11 (by no_op_writes hostOps0))))

/-! ## The rows of the edge table at an edge -/

theorem srcVec_apply (ei : IVec S2x800000 32) (e : Fin 800000) : srcVec ei (ix1 e) = ei (ix2 (0 : Fin 2) e) := by
  unfold srcVec
  exact (shapeCast_1a_a_apply _ shapeCasts_S1x800000_S800000 e).trans
    (slice2_axis0_apply 0 ei slices_S2x800000_S1x800000_0_0 (0 : Fin 1) e (0 : Fin 2) rfl)

theorem dstVec_apply (ei : IVec S2x800000 32) (e : Fin 800000) : dstVec ei (ix1 e) = ei (ix2 (1 : Fin 2) e) := by
  unfold dstVec
  exact (shapeCast_1a_a_apply _ shapeCasts_S1x800000_S800000 e).trans
    (slice2_axis0_apply 1 ei slices_S2x800000_S1x800000_1_0 (0 : Fin 1) e (1 : Fin 2) rfl)

/-! ## The bias vectors as one-row matrices -/

theorem V4_v11 (c : Dev nD) (o : Fin 128) :
    Gen.V4 m ρ c main_v11 (ix2 0 o) = Cert.Spec.vec (m ((c : Thread nD τ).loc main_arg8)) o := by
  have e : Gen.V4 m ρ c main_v11 = shapeCast S1x128 (W3 m ρ c (Proc.devRef .tc main_arg8)) shapeCasts_S128_S1x128 := by
    show StableHlo.after hostOps1 (W3 m ρ c) (Proc.devRef .tc main_v11) = _
    after_results
    rfl
  rw [e, W3_arg8]
  exact shapeCast_a_1a_apply _ shapeCasts_S128_S1x128 (0 : Fin 1) o

theorem V4_v12 (c : Dev nD) (o : Fin 64) :
    Gen.V4 m ρ c main_v12 (ix2 0 o) = Cert.Spec.vec (m ((c : Thread nD τ).loc main_arg10)) o := by
  have e : Gen.V4 m ρ c main_v12 = shapeCast S1x64 (W3 m ρ c (Proc.devRef .tc main_arg10)) shapeCasts_S64_S1x64 := by
    show StableHlo.after hostOps1 (W3 m ρ c) (Proc.devRef .tc main_v12) = _
    after_results
    rfl
  rw [e, W3_arg10]
  exact shapeCast_a_1a_apply _ shapeCasts_S64_S1x64 (0 : Fin 1) o

theorem V4_v13 (c : Dev nD) (o : Fin 64) :
    Gen.V4 m ρ c main_v13 (ix2 0 o) = Cert.Spec.vec (m ((c : Thread nD τ).loc main_arg12)) o := by
  have e : Gen.V4 m ρ c main_v13 = shapeCast S1x64 (W3 m ρ c (Proc.devRef .tc main_arg12)) shapeCasts_S64_S1x64 := by
    show StableHlo.after hostOps1 (W3 m ρ c) (Proc.devRef .tc main_v13) = _
    after_results
    rfl
  rw [e, W3_arg12]
  exact shapeCast_a_1a_apply _ shapeCasts_S64_S1x64 (0 : Fin 1) o

/-! ## The scatter-add of the first kernel's rows along the destinations -/

/-- The destination vector, written by the first stretch and by nothing after it, is row 1 of the edge table as launched. -/
theorem W3_v3 (c : Dev nD) : W3 m ρ c (Proc.devRef .tc main_v3) = dstVec (m ((c : Thread nD τ).loc main_arg1)) := by
  refine (W3_of_ne m ρ c main_v3 (by decide)).trans ((W2_keep m ρ c main_v3 (by no_op_writes hostOps0_1)).trans ?_)
  show StableHlo.after hostOps0 (W0 m ρ c) (Proc.devRef .tc main_v3) = _
  after_results
  rfl

theorem V4_v10 (c : Dev nD) :
    Gen.V4 m ρ c main_v10
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (dstVec (m ((c : Thread nD τ).loc main_arg1))))
          (Gen.V3 m ρ c main_v7) := by
  show StableHlo.after hostOps1 (W3 m ρ c) (Proc.devRef .tc main_v10) = _
  after_results
  rw [W3_v3]

end Cert.KernelIdeal.HostK4

end
-- ==== Proof.LibScatterRows2.lean ====
/-
  A scatter with an `add` body into a RANK-2 array, one whole row of C updates per row of an [n × 1] table of
  start indices (what `jax.ops.segment_sum` of a rank-2 array prints as), read at one element over the extended
  reals: the operand's element plus the sum, over the update rows whose start index read as a signed integer is
  the element's row, of the update in the element's column.
-/
import Idealize.ShloMosaic.PureOps.Ideal
import Idealize.ShloMosaic.Lib.ValueIdx

noncomputable section

open scoped BigOperators
open Idealize.ShloMosaic Idealize.ShloMosaic.ValueIdx

namespace Cert.LibScatterRows2

/-- Every entry of a one-element list is that element. -/
private theorem getElem_of_eq_single {β : Type} (l : List β) (b0 : β) (hl : l = [b0]) (k : Nat)
    (hk : k < l.length) : l[k] = b0 := by
  subst hl
  match k, hk with
  | 0, _ => rfl
  | k + 1, hk => exact absurd hk (by simp)

/-- With the second update axis the only window axis, the only update scatter axis is the first. -/
theorem uScatter_rows2 {N C n : Nat} (d : ScatterDims ⟨2, ![N, C]⟩ ⟨2, ![n, 1]⟩ ⟨2, ![n, C]⟩)
    (huw : d.updateWindowDims = [1]) (X : Fin 2) (hX : X ∈ d.uScatter) : X = 0 := by
  unfold ScatterDims.uScatter Shape.kept at hX
  rw [huw] at hX
  have h3 : X ∉ ([1] : List (Fin 2)) := of_decide_eq_true (List.mem_filter.1 hX).2
  have h4 : X.val ≠ 1 := fun h => h3 (List.mem_singleton.2 (Fin.ext h))
  have h6 : X.val < 2 := X.isLt
  apply Fin.ext
  show X.val = 0
  omega

/-- The operand's only axis that is not inserted is axis 1. -/
theorem sKept_rows2 {N C n : Nat} (d : ScatterDims ⟨2, ![N, C]⟩ ⟨2, ![n, 1]⟩ ⟨2, ![n, C]⟩)
    (hiw : d.insertedWindowDims = [0]) : d.sKept = [1] := by
  show Shape.kept _ d.insertedWindowDims = [1]
  rw [hiw]
  show (List.finRange 2).filter (fun a : Fin 2 => a ∉ ([0] : List (Fin 2))) = ([1] : List (Fin 2))
  decide

/-- The start-index table's row of update element (e, c) is row e. -/
theorem siIdx_rows2 {N C n : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (j : (⟨2, ![n, C]⟩ : Shape).Idx) (c : Fin d.scatterDimsToOperandDims.length) :
    d.siIdx j c = ix2 (j 0) (0 : Fin 1) := by
  funext b
  match b with
  | ⟨0, _⟩ =>
    unfold ScatterDims.siIdx
    rw [dif_neg (by rw [hivd]; simp)]
    unfold ScatterDims.siCoord
    apply Fin.ext
    simp only [Fin.val_cast]
    have e : ∀ X : Fin 2, X ∈ d.uScatter → (j X).val = (j 0).val := fun X hX => by
      have hX0 : X = 0 := uScatter_rows2 d huw X hX
      subst hX0; rfl
    exact e _ (List.getElem_mem _)
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the start index read signed. -/
theorem start_rows2_0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (j : (⟨2, ![n, C]⟩ : Shape).Idx) :
    d.start j idx (0 : Fin 2) = (idx (ix2 (j 0) (0 : Fin 1))).toInt := by
  have ha : (0 : Fin 2) ∈ d.scatterDimsToOperandDims := by
    rw [hsd]; exact List.mem_singleton.mpr rfl
  unfold ScatterDims.start
  rw [dif_pos ha, siIdx_rows2 d huw hsd hivd]; rfl

/-- On the column axis, which the map does not name, the window starts at 0. -/
theorem start_rows2_1 {N C n w : Nat} (d : ScatterDims ⟨2, ![N, C]⟩ ⟨2, ![n, 1]⟩ ⟨2, ![n, C]⟩)
    (hsd : d.scatterDimsToOperandDims = [0])
    (idx : IVec ⟨2, ![n, 1]⟩ w) (j : (⟨2, ![n, C]⟩ : Shape).Idx) :
    d.start j idx (1 : Fin 2) = 0 := by
  have ha : (1 : Fin 2) ∉ d.scatterDimsToOperandDims := by
    rw [hsd]
    show (1 : Fin 2) ∉ ([0] : List (Fin 2))
    decide
  unfold ScatterDims.start
  rw [dif_neg ha]

/-- The row axis is inserted: its window coordinate is 0. -/
theorem window_rows2_0 {N C n : Nat} (d : ScatterDims ⟨2, ![N, C]⟩ ⟨2, ![n, 1]⟩ ⟨2, ![n, C]⟩)
    (hiw : d.insertedWindowDims = [0]) (j : (⟨2, ![n, C]⟩ : Shape).Idx) :
    d.window j (0 : Fin 2) = 0 := by
  unfold ScatterDims.window
  rw [dif_neg]
  rw [sKept_rows2 d hiw]
  show (0 : Fin 2) ∉ ([1] : List (Fin 2))
  decide

/-- The column axis is the only kept axis: its window coordinate is the update's column. -/
theorem window_rows2_1 {N C n : Nat} (d : ScatterDims ⟨2, ![N, C]⟩ ⟨2, ![n, 1]⟩ ⟨2, ![n, C]⟩)
    (huw : d.updateWindowDims = [1]) (hiw : d.insertedWindowDims = [0]) (j : (⟨2, ![n, C]⟩ : Shape).Idx) :
    d.window j (1 : Fin 2) = (j 1).val := by
  have ha : (1 : Fin 2) ∈ d.sKept := by
    rw [sKept_rows2 d hiw]
    show (1 : Fin 2) ∈ ([1] : List (Fin 2))
    decide
  unfold ScatterDims.window
  rw [dif_pos ha, getElem_of_eq_single _ _ huw]

/-- Update element (e, c) lands on element (i, q) exactly when row e's start index, read signed, is i and c = q. -/
theorem resultIdx_rows2 {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (j : (⟨2, ![n, C]⟩ : Shape).Idx) (i : Fin N) (q : Fin C) :
    d.resultIdx? j idx = some (ix2 i q)
      ↔ (idx (ix2 (j 0) (0 : Fin 1))).toInt = (i.val : Int) ∧ (j 1).val = q.val := by
  have hi : i.val < N := i.isLt
  have hq : q.val < C := q.isLt
  have s0 := start_rows2_0 d huw hsd hivd idx j
  have s1 := start_rows2_1 d hsd idx j
  have w0 := window_rows2_0 d hiw j
  have w1 := window_rows2_1 d huw hiw j
  unfold ScatterDims.resultIdx?
  constructor
  · intro h
    split at h
    · rename_i hr
      have h2 := Option.some.inj h
      have h30 := congrArg Fin.val (congrFun h2 (0 : Fin 2))
      have h31 := congrArg Fin.val (congrFun h2 (1 : Fin 2))
      simp only [s0, s1, w0, w1] at h30 h31
      have hr0 := hr (0 : Fin 2)
      rw [s0, w0] at hr0
      have h30' : ((idx (ix2 (j 0) (0 : Fin 1))).toInt + ((0 : Nat) : Int)).toNat = i.val := h30
      have h31' : ((0 : Int) + (((j 1).val : Nat) : Int)).toNat = q.val := h31
      have hr00 := hr0.1
      refine ⟨?_, ?_⟩ <;> omega
    · exact absurd h (by simp)
  · rintro ⟨h1, h2⟩
    have hj1 : (j 1).val < C := (j 1).isLt
    have hr : ∀ b : Fin (⟨2, ![N, C]⟩ : Shape).rank, 0 ≤ d.start j idx b + (d.window j b : Int)
        ∧ d.start j idx b + (d.window j b : Int) < ((⟨2, ![N, C]⟩ : Shape).size b : Int) := by
      intro b
      match b with
      | ⟨0, _⟩ =>
        show 0 ≤ d.start j idx (0 : Fin 2) + (d.window j (0 : Fin 2) : Int)
          ∧ d.start j idx (0 : Fin 2) + (d.window j (0 : Fin 2) : Int) < (N : Int)
        rw [s0, w0]; omega
      | ⟨1, _⟩ =>
        show 0 ≤ d.start j idx (1 : Fin 2) + (d.window j (1 : Fin 2) : Int)
          ∧ d.start j idx (1 : Fin 2) + (d.window j (1 : Fin 2) : Int) < (C : Int)
        rw [s1, w1]; omega
    rw [dif_pos hr]
    congr 1
    funext b
    match b with
    | ⟨0, _⟩ =>
      apply Fin.ext
      show (d.start j idx (0 : Fin 2) + (d.window j (0 : Fin 2) : Int)).toNat = i.val
      rw [s0, w0]; omega
    | ⟨1, _⟩ =>
      apply Fin.ext
      show (d.start j idx (1 : Fin 2) + (d.window j (1 : Fin 2) : Int)).toNat = q.val
      rw [s1, w1]; omega

/-- The accumulating scatter of rows into a rank-2 array, read at element (i, q). -/
theorem hostScatterAdd_rows2 {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (q : Fin C) :
    Ideal.hostScatterAdd d x idx upd (ix2 i q)
      = x (ix2 i q) + ∑ e : Fin n, if (idx (ix2 e (0 : Fin 1))).toInt = (i.val : Int) then upd (ix2 e q) else 0 := by
  unfold Ideal.hostScatterAdd
  congr 1
  rw [Finset.sum_filter, sum_idx2]
  refine Finset.sum_congr rfl fun e _ => ?_
  have h := fun (c : Fin C) => resultIdx_rows2 d huw hiw hsd hivd idx (ix2 e c) i q
  by_cases hc : (idx (ix2 e (0 : Fin 1))).toInt = (i.val : Int)
  · rw [if_pos hc, Finset.sum_eq_single q]
    · rw [if_pos ((h q).mpr ⟨hc, rfl⟩)]
    · intro c _ hcq
      rw [if_neg]
      intro h'
      exact hcq (Fin.ext ((h c).mp h').2)
    · intro hq
      exact absurd (Finset.mem_univ q) hq
  · rw [if_neg hc]
    apply Finset.sum_eq_zero
    intro c _
    rw [if_neg]
    intro h'
    exact hc ((h c).mp h').1

end Cert.LibScatterRows2

end
-- ==== Proof.DomainMask.lean ====
/-
  Three facts about word operations on vectors of signed 32-bit indices, and one about a selection.

  An index vector all of whose entries are nonnegative is unchanged by the wrap "where the entry is negative,
  add 50000". An [800000 × 1] index table all of whose entries lie in 0 … 49999 passes the range test
  "0 ≤ entry and entry ≤ 49999" in every row, so the test, folded by `and` along the unit axis and spread over
  128 columns, is the word 1 everywhere. A vector read as an [n × 1] column has at (e, 0) the vector's entry e.
  A selection whose condition is the word 1 everywhere is its first branch.
-/
import Idealize.ShloMosaic.PureOps.Ideal
import Idealize.ShloMosaic.Lib.ValueIdx
import Idealize.ShloMosaic.Lib.ReduceAll

noncomputable section

open Idealize.ShloMosaic Idealize.ShloMosaic.ValueIdx

namespace Cert.Domain

private abbrev S_ : Shape := ⟨0, ![]⟩
private abbrev S1 : Shape := ⟨1, ![1]⟩
private abbrev S1x1 : Shape := ⟨2, ![1, 1]⟩
private abbrev S800000 : Shape := ⟨1, ![800000]⟩
private abbrev S800000x1 : Shape := ⟨2, ![800000, 1]⟩
private abbrev S800000x128 : Shape := ⟨2, ![800000, 128]⟩

/-- A left fold by `and` over one-bit words that starts at 1 and meets only 1s is 1. -/
theorem foldl_andi_of_all_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_of_all_one f hf l _ (IntOp.andi_eq_one.2 ⟨h, hf a⟩)

/-- A selection whose condition is the word 1 at every index is its first branch. -/
theorem select_all_one {α : Type} {s : Shape} (a b : s.Idx → α) : select (fun _ => (1#1 : BitVec 1)) a b = a := by
  funext i
  show (if (1#1 : BitVec 1) = 1 then a i else b i) = a i
  exact if_pos rfl

/-- A vector read as an [800000 × 1] column has at (e, 0) the vector's entry e. -/
theorem bcast_col_apply (hb : S800000.BroadcastsInDim S800000x1 (![0] : Fin 1 → Fin S800000x1.rank))
    (s : IVec S800000 32) (e : Fin 800000) :
    broadcastInDim S800000x1 ![0] hb s (ix2 e (0 : Fin 1)) = s (ix1 e) := by
  simp only [broadcastInDim]
  congr 1
  funext a
  match a with
  | ⟨0, _⟩ =>
    apply Fin.ext
    split
    · next h1 => change (800000 : Nat) = 1 at h1; omega
    · rfl

/-- Where every entry is nonnegative, "add 50000 where the entry is negative" changes nothing. -/
theorem wrap_id (hb : S_.BroadcastsInDim S800000 (![] : Fin 0 → Fin S800000.rank)) (s : IVec S800000 32)
    (h : ∀ e : Fin 800000, 0 ≤ (s (ix1 e)).toInt) :
    select (cmpi .slt s (broadcastInDim S800000 ![] hb (constantI S_ 32 0#32)))
      (addi s (broadcastInDim S800000 ![] hb (constantI S_ 32 50000#32))) s = s := by
  funext i
  obtain ⟨a, rfl⟩ : ∃ a, i = ix1 a := ⟨_, eq_ix1 i⟩
  have hi := h a
  have hc : ¬ IntOp.cmpi .slt (s (ix1 a)) 0#32 = 1#1 := by
    rw [IntOp.cmpi_slt]
    have h0 : (0#32 : BitVec 32).toInt = 0 := by decide
    rw [h0]
    omega
  exact if_neg hc

/-- Where every entry of the index table lies in 0 … 49999, the range test folded by `and` along the unit
    axis and spread over the 128 columns is the word 1 everywhere. -/
theorem mask_true (hb0 : S_.BroadcastsInDim S800000x1 (![] : Fin 0 → Fin S800000x1.rank))
    (hb1 : S1.BroadcastsInDim S1x1 (![1] : Fin 1 → Fin S1x1.rank))
    (hb2 : S1x1.BroadcastsInDim S800000x1 (![0, 1] : Fin 2 → Fin S800000x1.rank))
    (hr : S800000x1.ReducesTo [1] S800000) (hn : 0 < S_.numel)
    (hb3 : S800000.BroadcastsInDim S800000x128 (![0] : Fin 1 → Fin S800000x128.rank))
    (idx : IVec S800000x1 32)
    (h : ∀ e : Fin 800000, 0 ≤ (idx (ix2 e (0 : Fin 1))).toInt ∧ (idx (ix2 e (0 : Fin 1))).toInt ≤ 49999) :
    broadcastInDim S800000x128 ![0] hb3
      (Host.reduce IntOp.andi
        (andi (cmpi .sge idx (broadcastInDim S800000x1 ![] hb0 (constantI S_ 32 0#32)))
          (cmpi .sle idx (broadcastInDim S800000x1 ![0, 1] hb2 (broadcastInDim S1x1 ![1] hb1 (constantI S1 32 49999#32)))))
        (constantI S_ 1 1#1) hr hn) = fun _ => 1#1 := by
  -- every row passes the test
  have hrow : ∀ i : S800000x1.Idx,
      andi (cmpi .sge idx (broadcastInDim S800000x1 ![] hb0 (constantI S_ 32 0#32)))
        (cmpi .sle idx (broadcastInDim S800000x1 ![0, 1] hb2 (broadcastInDim S1x1 ![1] hb1 (constantI S1 32 49999#32)))) i
        = 1#1 := by
    intro i
    obtain ⟨a, b, rfl⟩ : ∃ a b, i = ix2 a b := ⟨_, _, eq_ix2 i⟩
    have hb : b = 0 := Subsingleton.elim _ _
    subst hb
    have hi := h a
    show IntOp.andi (IntOp.cmpi .sge (idx (ix2 a 0)) 0#32) (IntOp.cmpi .sle (idx (ix2 a 0)) 49999#32) = 1#1
    rw [IntOp.andi_eq_one, IntOp.cmpi_sge, IntOp.cmpi_sle]
    have h0 : (0#32 : BitVec 32).toInt = 0 := by decide
    have h9 : (49999#32 : BitVec 32).toInt = 49999 := by decide
    rw [h0, h9]
    exact hi
  -- so the fold is 1 at every row
  have hred : ∀ k : S800000.Idx,
      Host.reduce IntOp.andi
        (andi (cmpi .sge idx (broadcastInDim S800000x1 ![] hb0 (constantI S_ 32 0#32)))
          (cmpi .sle idx (broadcastInDim S800000x1 ![0, 1] hb2 (broadcastInDim S1x1 ![1] hb1 (constantI S1 32 49999#32)))))
        (constantI S_ 1 1#1) hr hn k = 1#1 := by
    intro k
    rw [Host.reduce_eq_foldl]
    exact foldl_andi_of_all_one _ hrow _ _ rfl
  funext j
  exact hred _

end Cert.Domain

end
-- ==== Proof.Algebra.lean ====
/-
  The algebra of the specification.

  Three facts. (1) The gate computed from the joined feature row [lin | mult] and the whole 128 × 8 mixing matrix
  equals the gate computed from the two features and the matrix's upper and lower halves: a sum over 128 indices is
  the sum over the first 64 plus the sum over the last 64. (2) Real-valuedness is preserved: sums, products and
  maxima of real numbers are real, and tanh is always real; hence lin, mult and gate are real when their inputs are.
  (3) When every entry is real, the message form and the support form of the aggregated sum agree: this is
  distributivity and the exchange of finite sums, proved over ℝ and carried to the extended reals by the coercion.
-/
import proofs.«414678_j84086869721473_2_alg».proof.Proof.Spec
import Mathlib.Data.EReal.Operations
import Mathlib.Algebra.BigOperators.Fin
import Mathlib.Algebra.BigOperators.Ring.Finset

noncomputable section

open scoped BigOperators
open Idealize.ShloMosaic Idealize.ShloMosaic.ValueIdx

namespace Cert.Spec

/-- An extended real is a real number: neither +∞ nor -∞. -/
def IsFin (v : EReal) : Prop := v ≠ ⊤ ∧ v ≠ ⊥

/-- The image of a real number is real. -/
theorem isFin_coe (r : ℝ) : IsFin (r : EReal) := ⟨EReal.coe_ne_top r, EReal.coe_ne_bot r⟩

/-- A real-valued extended real is the image of a real number. -/
theorem IsFin.exists_coe {v : EReal} (h : IsFin v) : ∃ r : ℝ, v = (r : EReal) := by
  lift v to ℝ using h
  exact ⟨v, rfl⟩

/-- Zero is real. -/
theorem isFin_zero : IsFin (0 : EReal) := isFin_coe 0

/-- The sum of two reals is real. -/
theorem IsFin.add {a b : EReal} (ha : IsFin a) (hb : IsFin b) : IsFin (a + b) := by
  obtain ⟨x, rfl⟩ := ha.exists_coe
  obtain ⟨y, rfl⟩ := hb.exists_coe
  rw [← EReal.coe_add]; exact isFin_coe _

/-- The product of two reals is real. -/
theorem IsFin.mul {a b : EReal} (ha : IsFin a) (hb : IsFin b) : IsFin (a * b) := by
  obtain ⟨x, rfl⟩ := ha.exists_coe
  obtain ⟨y, rfl⟩ := hb.exists_coe
  rw [← EReal.coe_mul]; exact isFin_coe _

/-- The maximum of two reals is real: it is one of them. -/
theorem IsFin.max {a b : EReal} (ha : IsFin a) (hb : IsFin b) : IsFin (max a b) := by
  rcases max_choice a b with h | h <;> rw [h] <;> assumption

/-- A finite sum of reals is real. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- tanh of any extended real is real: -1 at -∞, 1 at +∞, the real tanh elsewhere. -/
theorem isFin_tanh (v : EReal) : IsFin (Ideal.tanh v) := by
  induction v using EReal.rec with
  | bot => rw [Ideal.tanh_bot]; exact isFin_coe (-1)
  | coe r => rw [Ideal.tanh_coe]; exact isFin_coe _
  | top => rw [Ideal.tanh_top]; exact isFin_coe 1

/-! ### (1) The gate from the joined row -/

/-- The joined-row gate is the two-halves gate: Σ_{j<128} = Σ_{j<64} + Σ_{64≤j<128}. -/
theorem gateCat_eq_gate {E : Nat} (ea : Mat E 32) (W1 W2 W3 : Mat 32 64) (W4 : Mat 128 8) (e : Fin E) (k : Fin 8) :
    gateCat ea W1 W2 W3 W4 e k = gate ea W1 W2 W3 (upper W4) (lower W4) e k := by
  unfold gateCat gate
  congr 1
  refine (Fin.sum_univ_add (a := 64) (b := 64) (fun j : Fin 128 => cat ea W1 W2 W3 e j * W4 (ix2 j k))).trans ?_
  refine congrArg₂ (· + ·) (Finset.sum_congr rfl fun j _ => ?_) (Finset.sum_congr rfl fun j _ => ?_)
  · -- the first 64 indices read the linear feature and the upper rows
    have hj : (Fin.castAdd 64 j).val < 64 := j.isLt
    simp only [cat, dif_pos hj]
    rfl
  · -- the last 64 indices read the multiplicative feature and the lower rows
    have hv : (Fin.natAdd 64 j).val = 64 + j.val := Fin.coe_natAdd 64 j
    have hj : ¬ (Fin.natAdd 64 j).val < 64 := by omega
    have hjj : (⟨(Fin.natAdd 64 j).val - 64, by have := j.isLt; omega⟩ : Fin 64) = j := by
      apply Fin.ext; show (Fin.natAdd 64 j).val - 64 = j.val; omega
    simp only [cat, dif_neg hj, hjj]
    rfl

/-! ### (2) Real-valuedness -/

/-- The rectified linear feature of real inputs is real. -/
theorem lin_isFin {E : Nat} (ea : Mat E 32) (W1 : Mat 32 64) (hea : ∀ i, IsFin (ea i)) (hW1 : ∀ i, IsFin (W1 i))
    (e : Fin E) (j : Fin 64) : IsFin (lin ea W1 e j) :=
  (isFin_sum _ _ fun _ _ => (hea _).mul (hW1 _)).max isFin_zero

/-- The multiplicative feature is always real: a product of two tanh values. -/
theorem mult_isFin {E : Nat} (ea : Mat E 32) (W2 W3 : Mat 32 64) (e : Fin E) (j : Fin 64) :
    IsFin (mult ea W2 W3 e j) :=
  (isFin_tanh _).mul (isFin_tanh _)

/-- The gate of real inputs is real. -/
theorem gate_isFin {E : Nat} (ea : Mat E 32) (W1 W2 W3 : Mat 32 64) (W4a W4b : Mat 64 8)
    (hea : ∀ i, IsFin (ea i)) (hW1 : ∀ i, IsFin (W1 i)) (hW4a : ∀ i, IsFin (W4a i)) (hW4b : ∀ i, IsFin (W4b i))
    (e : Fin E) (k : Fin 8) : IsFin (gate ea W1 W2 W3 W4a W4b e k) :=
  ((isFin_sum _ _ fun _ _ => (lin_isFin ea W1 hea hW1 _ _).mul (hW4a _)).add
    (isFin_sum _ _ fun _ _ => (mult_isFin ea W2 W3 _ _).mul (hW4b _))).max isFin_zero

/-- The upper half of a real matrix is real. -/
theorem upper_isFin (W4 : Mat 128 8) (h : ∀ i, IsFin (W4 i)) : ∀ i, IsFin (upper W4 i) := fun _ => h _

/-- The lower half of a real matrix is real. -/
theorem lower_isFin (W4 : Mat 128 8) (h : ∀ i, IsFin (W4 i)) : ∀ i, IsFin (lower W4 i) := fun _ => h _

/-! ### (3) The message form equals the support form -/

/-- The coercion ℝ → EReal commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → EReal commutes with a choice between two values. -/
theorem coe_ite (p : Prop) [Decidable p] (a b : ℝ) :
    ((if p then a else b : ℝ) : EReal) = if p then (a : EReal) else (b : EReal) := by
  split <;> rfl

/-- Over ℝ: Σ_e [c e] Σ_k g(e,k) Σ_j x(e,j) w(k,j) = Σ_k Σ_j (Σ_e [c e] g(e,k) x(e,j)) w(k,j). -/
theorem real_msg_eq_sup {E : Nat} (c : Fin E → Prop) [DecidablePred c] (g : Fin E → Fin 8 → ℝ)
    (x : Fin E → Fin 128 → ℝ) (w : Fin 8 → Fin 128 → ℝ) :
    (∑ e, if c e then ∑ k, g e k * ∑ j, x e j * w k j else 0)
      = ∑ k, ∑ j, (∑ e, if c e then g e k * x e j else 0) * w k j := by
  symm
  calc ∑ k, ∑ j, (∑ e, if c e then g e k * x e j else 0) * w k j
      = ∑ k, ∑ j, ∑ e, if c e then g e k * (x e j * w k j) else 0 := by
        simp only [Finset.sum_mul, ite_mul, zero_mul, mul_assoc]
    _ = ∑ k, ∑ e, ∑ j, if c e then g e k * (x e j * w k j) else 0 :=
        Finset.sum_congr rfl fun k _ => Finset.sum_comm
    _ = ∑ e, ∑ k, ∑ j, if c e then g e k * (x e j * w k j) else 0 := Finset.sum_comm
    _ = ∑ e, if c e then ∑ k, g e k * ∑ j, x e j * w k j else 0 := by
        refine Finset.sum_congr rfl fun e _ => ?_
        by_cases h : c e
        · simp only [if_pos h, Finset.mul_sum]
        · simp only [if_neg h, Finset.sum_const_zero]

/-- With every entry real, summing messages into their destination equals passing the summed gated rows through
    each support's matrix: distributivity and the exchange of finite sums. -/
theorem aggMsg_eq_aggSup {E N : Nat} (dst : Fin E → Int) (g : Fin E → Fin 8 → EReal) (xs : Mat E 128)
    (Wk : Ten 8 128 128) (hg : ∀ e k, IsFin (g e k)) (hxs : ∀ i, IsFin (xs i)) (hWk : ∀ i, IsFin (Wk i))
    (n : Fin N) (o : Fin 128) : aggMsg dst g xs Wk n o = aggSup dst g xs Wk n o := by
  choose g' hg' using fun e k => (hg e k).exists_coe
  choose xs' hxs' using fun i => (hxs i).exists_coe
  choose Wk' hWk' using fun i => (hWk i).exists_coe
  have key := congrArg (fun r : ℝ => (r : EReal))
    (real_msg_eq_sup (fun e => dst e = (n.val : Int)) g' (fun e j => xs' (ix2 e j)) (fun k j => Wk' (ix3 k j o)))
  simp only [coe_sum, coe_ite, EReal.coe_mul, EReal.coe_zero] at key
  simp only [aggMsg, aggSup, seg, msg, contrib, hg', hxs', hWk']
  exact key

end Cert.Spec

end
-- ==== Proof.Bridge.lean ====
/-
  The two arrangements of the layer agree on real inputs.

  The message form sums, into each node, whole messages  Σ_k g(e,k) · (xs(e) · Wk(k));  the support form first sums
  the gated rows  g(e,k) · xs(e)  into each node and then multiplies by Wk(k).  With every entry a real number the
  two are one sum (distributivity and a change of summation order), and the gate over the whole mixing matrix is the
  gate over its two halves (a sum over 128 columns split into two sums over 64). The node output applies the same
  function to both.
-/
import proofs.«414678_j84086869721473_2_alg».proof.Proof.Spec
import proofs.«414678_j84086869721473_2_alg».proof.Proof.Algebra

noncomputable section

open scoped BigOperators
open Idealize.ShloMosaic Idealize.ShloMosaic.ValueIdx

namespace Cert.Spec

/-- The node output depends on the aggregate only through its values. -/
theorem nodeOut_congr {N : Nat} {H H' : Fin N → Fin 128 → EReal} {bk bk' : Fin 128 → EReal} {x x' : Mat N 128}
    {W11 W11' W12 W12' : Mat 128 64} {b11 b11' b12 b12' : Fin 64 → EReal}
    (hH : H = H') (hbk : bk = bk') (hx : x = x') (h11 : W11 = W11') (h12 : W12 = W12') (hb11 : b11 = b11')
    (hb12 : b12 = b12') (n : Fin N) (c : Fin 192) :
    nodeOut H bk x W11 W12 b11 b12 n c = nodeOut H' bk' x' W11' W12' b11' b12' n c := by
  subst hH hbk hx h11 h12 hb11 hb12
  rfl

/-- On real inputs the message form over the halved mixing matrix is the support form over the whole one. -/
theorem aggMsg_gate_eq_aggSup_gateCat {E N : Nat} (dst : Fin E → Int) (ea : Mat E 32) (W1 W2 W3 : Mat 32 64)
    (W4 : Mat 128 8) (xs : Mat E 128) (Wk : Ten 8 128 128)
    (hea : ∀ i, IsFin (ea i)) (hW1 : ∀ i, IsFin (W1 i)) (hW4 : ∀ i, IsFin (W4 i)) (hxs : ∀ i, IsFin (xs i))
    (hWk : ∀ i, IsFin (Wk i)) :
    (aggMsg dst (gate ea W1 W2 W3 (upper W4) (lower W4)) xs Wk : Fin N → Fin 128 → EReal)
      = aggSup dst (gateCat ea W1 W2 W3 W4) xs Wk := by
  have hg : gateCat ea W1 W2 W3 W4 = gate ea W1 W2 W3 (upper W4) (lower W4) :=
    funext fun e => funext fun k => gateCat_eq_gate ea W1 W2 W3 W4 e k
  rw [hg]
  funext n o
  exact aggMsg_eq_aggSup dst _ xs Wk
    (fun e k => gate_isFin ea W1 W2 W3 (upper W4) (lower W4) hea hW1 (upper_isFin W4 hW4) (lower_isFin W4 hW4) e k)
    hxs hWk n o

end Cert.Spec

end
-- ==== Proof.KernelValue.lean ====
/-
  The kernel program's result as ONE function of its argument arrays.

  The program gathers a node row per edge, forms per edge the message  Σ_k g(e,k) · (xs(e) · Wk(k))  in its first
  region (row blocks of 8000 edges), sums the messages into their destination nodes on the host, and in its second
  region (row blocks of 10000 nodes) joins  max(H + bk, 0)  with the elementwise branch. Read back through the
  boundaries of the run, the result array is the node output over the message form of the aggregate.
-/
import proofs.«414678_j84086869721473_2_alg».proof.Proof.KernelRun
import proofs.«414678_j84086869721473_2_alg».proof.Proof.EdgeArray
import proofs.«414678_j84086869721473_2_alg».proof.Proof.NodeArray
import proofs.«414678_j84086869721473_2_alg».proof.Proof.HostK
import proofs.«414678_j84086869721473_2_alg».proof.Proof.HostK4
import proofs.«414678_j84086869721473_2_alg».proof.Proof.LibScatterRows2
import proofs.«414678_j84086869721473_2_alg».proof.Proof.DomainMask
import proofs.«414678_j84086869721473_2_alg».proof.Proof.Bridge
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The result as a function of the thirteen argument arrays: the node output over the message form, the gathered
    rows the program's own (out-of-range source indices filled, in-range ones gathered). -/
def resK (x : FVec Ideal S50000x128 .f32) (ei : IVec S2x800000 32) (ea : FVec Ideal S800000x32 .f32)
    (W1 W2 W3 : FVec Ideal S32x64 .f32) (W4 : FVec Ideal S128x8 .f32) (Wk : FVec Ideal S8x128x128 .f32)
    (bk : FVec Ideal S128 .f32) (W11 : FVec Ideal S128x64 .f32) (b11 : FVec Ideal S64 .f32)
    (W12 : FVec Ideal S128x64 .f32) (b12 : FVec Ideal S64 .f32) : S50000x192.Idx → EReal :=
  fun i => Cert.Spec.nodeOut
    (Cert.Spec.aggMsg (Cert.Spec.dstOf ei) (Cert.Spec.gate ea W1 W2 W3 (Cert.Spec.upper W4) (Cert.Spec.lower W4))
      (HostK.xsK x ei) Wk)
    (Cert.Spec.vec bk) x W11 W12 (Cert.Spec.vec b11) (Cert.Spec.vec b12) (i 0) (i 1)

/-- The accumulating scatter of the program, read at one entry: the operand's entry plus the updates of the rows whose
    start index is the entry's row. -/
theorem scatter_rows (x : FVec Ideal S50000x128 .f32) (idx : IVec S800000x1 32) (upd : FVec Ideal S800000x128 .f32)
    (n : Fin 50000) (o : Fin 128) :
    Host.scatterAdd scatter_S50000x128_S800000x1_S800000x128_1_0_0_1 x idx upd (ix2 n o)
      = x (ix2 n o) + ∑ e : Fin 800000, if (idx (ix2 e (0 : Fin 1))).toInt = (n.val : Int) then upd (ix2 e o) else 0 := by
  unfold Host.scatterAdd
  rw [Ideal.hostScatterAdd_def]
  exact Cert.LibScatterRows2.hostScatterAdd_rows2 _ rfl rfl rfl rfl x idx upd n o

/-- The first region's output array when the region is left: each edge's message. -/
theorem messages_eq (c : Dev nD) :
    V3 m ρ c main_v7 = fun i => Cert.Spec.msg (HostK.xsK (m ((c : Thread nD τ).loc main_arg0)) (m ((c : Thread nD τ).loc main_arg1)))
      (m ((c : Thread nD τ).loc main_arg7))
      (Cert.Spec.gate (m ((c : Thread nD τ).loc main_arg2)) (m ((c : Thread nD τ).loc main_arg3))
        (m ((c : Thread nD τ).loc main_arg4)) (m ((c : Thread nD τ).loc main_arg5))
        (Cert.Spec.upper (m ((c : Thread nD τ).loc main_arg6))) (Cert.Spec.lower (m ((c : Thread nD τ).loc main_arg6))))
      (i 0) (i 1) := by
  rw [show V3 m ρ c main_v7 = (dat0 (V2 m ρ) c).arrAt 8 cfg0.N from (hF0 m ρ c 8).symm, Edge.edge_final (V2 m ρ) c,
    HostK.V2_v6, HostK.V2_arg7, HostK.V2_arg2, HostK.V2_arg3, HostK.V2_arg4, HostK.V2_arg5, HostK.V2_v4, HostK.V2_v5]

/-- The host's sum of the messages into their destination nodes, read at one entry: the message form. -/
theorem aggregate_apply (c : Dev nD) (n : Fin 50000) (o : Fin 128) :
    V4 m ρ c main_v10 (ix2 n o)
      = Cert.Spec.aggMsg (Cert.Spec.dstOf (m ((c : Thread nD τ).loc main_arg1)))
          (Cert.Spec.gate (m ((c : Thread nD τ).loc main_arg2)) (m ((c : Thread nD τ).loc main_arg3))
            (m ((c : Thread nD τ).loc main_arg4)) (m ((c : Thread nD τ).loc main_arg5))
            (Cert.Spec.upper (m ((c : Thread nD τ).loc main_arg6))) (Cert.Spec.lower (m ((c : Thread nD τ).loc main_arg6))))
          (HostK.xsK (m ((c : Thread nD τ).loc main_arg0)) (m ((c : Thread nD τ).loc main_arg1)))
          (m ((c : Thread nD τ).loc main_arg7)) n o := by
  rw [HostK4.V4_v10]
  refine (scatter_rows _ _ _ n o).trans ?_
  rw [show (broadcastInDim S50000x128 ![] bcast_S_S50000x128 (constant (F := Ideal) S_ .f32 0x00000000#32)) (ix2 n o)
      = (0 : EReal) from Ideal.ofBits_zero_f32, zero_add]
  unfold Cert.Spec.aggMsg Cert.Spec.seg
  refine Finset.sum_congr rfl fun e _ => ?_
  rw [Cert.Domain.bcast_col_apply, HostK4.dstVec_apply, messages_eq]
  rfl

/-- The last boundary's contents of the result buffer are the function of the arguments. -/
theorem result_eq (c : Dev nD) :
    W5 m ρ c (Proc.devRef .tc main_v14)
      = resK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [show W5 m ρ c (Proc.devRef .tc main_v14) = (dat1 (V4 m ρ) c).arrAt 7 cfg1.N from W5_arr m ρ c 7,
    Node.node_final (V4 m ρ) c]
  funext i
  unfold resK
  exact Cert.Spec.nodeOut_congr
    (funext fun n => funext fun o => aggregate_apply m ρ c n o)
    (funext fun o => HostK4.V4_v11 m ρ c o)
    (HostK4.V4_arg0 m ρ c) (HostK4.V4_arg9 m ρ c) (HostK4.V4_arg11 m ρ c)
    (funext fun o => HostK4.V4_v12 m ρ c o) (funext fun o => HostK4.V4_v13 m ρ c o) (i 0) (i 1)

/-- The run of the kernel program with its result named as the function of the arguments. -/
theorem run : θ_run defs (onTc (τ := τ) (main (F := Ideal))) ⟨m, fun _ => 0, ρ⟩ (fun r => ∀ c : Dev nD,
      r.2.mem ((c.tc : Thread nD τ).loc main_v14)
        = resK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (Cert.KernelIdeal.HandRun.run_main m ρ)

end Cert.KernelIdeal.HandValue

end
-- ==== Proof.RefGate.lean ====
/-
  The reference's edge gate, index by index: the rectified linear feature, the product of two tanh features, the
  two side by side, and the gate max([lin | mult] · W4, 0).
-/
import proofs.«414678_j84086869721473_2_alg».proof.Proof.Spec
import proofs.«414678_j84086869721473_2_alg».proof.Proof.Gen.ReferenceIdeal.Read

noncomputable section

open scoped BigOperators
open Idealize.ShloMosaic Idealize.ShloMosaic.ValueIdx Idealize.ShloMosaic.StableHlo
open Cert.ReferenceIdeal Cert.ReferenceIdeal.Gen

namespace Cert.ReferenceIdeal.RefValue

/-! ## The edge features at an index -/

/-- The zero word is the real number zero. -/
theorem zero_word : (FloatOps.ofBits (F := Ideal) .f32 0x00000000#32) = (0 : EReal) := by
  rw [Ideal.ofBits_def, Ideal.ofBits_zero_f32]

/-- The rectified linear feature: max(ea · W1, 0). -/
theorem lin_apply (x2 : (⟨S800000x32, .f32⟩ : BufTy).Contents (Elt Ideal)) (x3 : (⟨S32x64, .f32⟩ : BufTy).Contents (Elt Ideal))
    (e : Fin 800000) (j : Fin 64) :
    Read.val_main_v1 (F := Ideal) x2 x3 (ix2 e j) = Cert.Spec.lin x2 x3 e j := by
  have el : ∀ k : Fin 32, Read.lidx_main_v0 (ix2 e j) k = ix2 e k := fun k =>
    funext fun a => Fin.ext (by match a with | ⟨0, _⟩ => rfl | ⟨1, _⟩ => rfl)
  have er : ∀ k : Fin 32, Read.ridx_main_v0 (ix2 e j) k = ix2 k j := fun k =>
    funext fun a => Fin.ext (by match a with | ⟨0, _⟩ => rfl | ⟨1, _⟩ => rfl)
  rw [Read.val_main_v1_apply, Read.val_main_v0_apply, Read.val_main_call0_v0_apply, Read.val_main_call0_cst_apply]
  simp only [el, er, Ideal.maximumf_def, zero_word]
  rfl

/-- The multiplicative feature: tanh(ea · W2) · tanh(ea · W3). -/
theorem mult_apply (x2 : (⟨S800000x32, .f32⟩ : BufTy).Contents (Elt Ideal)) (x4 x5 : (⟨S32x64, .f32⟩ : BufTy).Contents (Elt Ideal))
    (e : Fin 800000) (j : Fin 64) :
    Read.val_main_v6 (F := Ideal) x2 x4 x5 (ix2 e j) = Cert.Spec.mult x2 x4 x5 e j := by
  have el2 : ∀ k : Fin 32, Read.lidx_main_v2 (ix2 e j) k = ix2 e k := fun k =>
    funext fun a => Fin.ext (by match a with | ⟨0, _⟩ => rfl | ⟨1, _⟩ => rfl)
  have er2 : ∀ k : Fin 32, Read.ridx_main_v2 (ix2 e j) k = ix2 k j := fun k =>
    funext fun a => Fin.ext (by match a with | ⟨0, _⟩ => rfl | ⟨1, _⟩ => rfl)
  have el4 : ∀ k : Fin 32, Read.lidx_main_v4 (ix2 e j) k = ix2 e k := fun k =>
    funext fun a => Fin.ext (by match a with | ⟨0, _⟩ => rfl | ⟨1, _⟩ => rfl)
  have er4 : ∀ k : Fin 32, Read.ridx_main_v4 (ix2 e j) k = ix2 k j := fun k =>
    funext fun a => Fin.ext (by match a with | ⟨0, _⟩ => rfl | ⟨1, _⟩ => rfl)
  rw [Read.val_main_v6_apply, Read.val_main_v3_apply, Read.val_main_v5_apply, Read.val_main_v2_apply,
    Read.val_main_v4_apply]
  simp only [el2, er2, el4, er4, Ideal.mulf_def, Ideal.hostUnary_tanh_def]
  rfl

/-- The two features side by side: columns 0..63 the linear one, 64..127 the multiplicative one. -/
theorem cat_apply (x2 : (⟨S800000x32, .f32⟩ : BufTy).Contents (Elt Ideal)) (x3 x4 x5 : (⟨S32x64, .f32⟩ : BufTy).Contents (Elt Ideal))
    (e : Fin 800000) (j : Fin 128) :
    Read.val_main_v7 (F := Ideal) x2 x3 x4 x5 (ix2 e j) = Cert.Spec.cat x2 x3 x4 x5 e j := by
  unfold Read.val_main_v7 Cert.Spec.cat
  by_cases h : j.val < 64
  · rw [dif_pos h, ← lin_apply]
    generalize Read.val_main_v1 (F := Ideal) x2 x3 = y1
    generalize Read.val_main_v6 (F := Ideal) x2 x4 x5 = y2
    exact concatenate_pair_apply_left (1 : Fin 2) y1 y2 concatenates_S800000x64_S800000x64_S800000x128_d1 (ix2 e j) rfl
      (ix2 e ⟨j.val, h⟩) (fun b => by match b with | ⟨0, _⟩ => rfl | ⟨1, _⟩ => rfl)
  · rw [dif_neg h, ← mult_apply]
    generalize Read.val_main_v1 (F := Ideal) x2 x3 = y1
    generalize Read.val_main_v6 (F := Ideal) x2 x4 x5 = y2
    exact concatenate_pair_apply_right (1 : Fin 2) y1 y2 concatenates_S800000x64_S800000x64_S800000x128_d1 (ix2 e j) rfl rfl
      (ix2 e ⟨j.val - 64, by omega⟩) (fun b hb => by match b with | ⟨0, _⟩ => rfl | ⟨1, _⟩ => exact absurd rfl hb)
      (by show (j.val - 64) + 64 = j.val; omega)

/-- The gate: max([lin | mult] · W4, 0). -/
theorem gate_apply (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (e : Fin 800000) (k : Fin 8) :
    Read.val_main_v9 (F := Ideal) x2 x3 x4 x5 x6 (ix2 e k) = Cert.Spec.gateCat x2 x3 x4 x5 x6 e k := by
  have el : ∀ j : Fin 128, Read.lidx_main_v8 (ix2 e k) j = ix2 e j := fun j =>
    funext fun a => Fin.ext (by match a with | ⟨0, _⟩ => rfl | ⟨1, _⟩ => rfl)
  have er : ∀ j : Fin 128, Read.ridx_main_v8 (ix2 e k) j = ix2 j k := fun j =>
    funext fun a => Fin.ext (by match a with | ⟨0, _⟩ => rfl | ⟨1, _⟩ => rfl)
  rw [Read.val_main_v9_apply, Read.val_main_v8_apply, Read.val_main_call1_v0_apply, Read.val_main_call1_cst_apply]
  simp only [el, er, cat_apply, Ideal.maximumf_def, zero_word]
  rfl

end Cert.ReferenceIdeal.RefValue

end
-- ==== Proof.RefElem.lean ====
/-
  The reference's elementwise branch, read at one element over the extended reals: the product of two tanh, each
  of a row of the node array through a 128 × 64 matrix plus a bias spread over the rows,
      tanh (Σ_j x(n,j) · W11(j,c) + b11(c)) · tanh (Σ_j x(n,j) · W12(j,c) + b12(c)).
-/
import proofs.«414678_j84086869721473_2_alg».proof.Proof.Gen.ReferenceIdeal.Read
import proofs.«414678_j84086869721473_2_alg».proof.Proof.Spec

noncomputable section

open scoped BigOperators
open Cert.ReferenceIdeal Cert.ReferenceIdeal.Gen Idealize.ShloMosaic Idealize.ShloMosaic.ValueIdx

namespace Cert.ReferenceIdeal.RefValue

/-- The reference's stage %116 at (n, c) is the specification's elementwise branch there: each dot product read
    as its sum over the contracted coordinate, each bias read through its two broadcasts at column c. -/
theorem elem_apply (x0 : (⟨S50000x128, .f32⟩ : BufTy).Contents (Elt Ideal))
    (x9 : (⟨S128x64, .f32⟩ : BufTy).Contents (Elt Ideal)) (x10 : (⟨S64, .f32⟩ : BufTy).Contents (Elt Ideal))
    (x11 : (⟨S128x64, .f32⟩ : BufTy).Contents (Elt Ideal)) (x12 : (⟨S64, .f32⟩ : BufTy).Contents (Elt Ideal))
    (n : Fin 50000) (c : Fin 64) :
    Read.val_main_v116 x0 x9 x10 x11 x12 (ix2 n c)
      = Cert.Spec.elem x0 x9 x11 (Cert.Spec.vec x10) (Cert.Spec.vec x12) n c := by
  have el1 : ∀ k : Fin 128, Read.lidx_main_v106 (ix2 n c) k = ix2 n k := fun k =>
    funext fun a => Fin.ext (by match a with | ⟨0, _⟩ => rfl | ⟨1, _⟩ => rfl)
  have er1 : ∀ k : Fin 128, Read.ridx_main_v106 (ix2 n c) k = ix2 k c := fun k =>
    funext fun a => Fin.ext (by match a with | ⟨0, _⟩ => rfl | ⟨1, _⟩ => rfl)
  have eb1 : Read.idx_main_v107 (Read.idx_main_v108 (ix2 n c)) = ix1 c :=
    funext fun a => Fin.ext (by match a with | ⟨0, _⟩ => rfl)
  have el2 : ∀ k : Fin 128, Read.lidx_main_v111 (ix2 n c) k = ix2 n k := fun k =>
    funext fun a => Fin.ext (by match a with | ⟨0, _⟩ => rfl | ⟨1, _⟩ => rfl)
  have er2 : ∀ k : Fin 128, Read.ridx_main_v111 (ix2 n c) k = ix2 k c := fun k =>
    funext fun a => Fin.ext (by match a with | ⟨0, _⟩ => rfl | ⟨1, _⟩ => rfl)
  have eb2 : Read.idx_main_v112 (Read.idx_main_v113 (ix2 n c)) = ix1 c :=
    funext fun a => Fin.ext (by match a with | ⟨0, _⟩ => rfl)
  rw [Read.val_main_v116_apply, Read.val_main_v110_apply, Read.val_main_v109_apply, Read.val_main_v106_apply,
    Read.val_main_v108_apply, Read.val_main_v107_apply, Read.val_main_v115_apply, Read.val_main_v114_apply,
    Read.val_main_v111_apply, Read.val_main_v113_apply, Read.val_main_v112_apply]
  simp only [el1, er1, eb1, el2, er2, eb2, Ideal.mulf_def, Ideal.addf_def, Ideal.hostUnary_tanh_def]
  rfl

end Cert.ReferenceIdeal.RefValue

end
-- ==== Proof.RefValue.lean ====
/-
  The reference program's result, index by index, is the node output of the support form:
      columns 0..127    max(Σ_k Σ_j (Σ_{e → n} g(e,k) · xs(e,j)) · Wk(k,j,o) + bk(o), 0),
      columns 128..191  tanh(x · W11 + b11) · tanh(x · W12 + b12),
  with g the edge gate and xs the gathered node rows. The reference adds the eight supports one after another onto a
  zero array; each support is a scatter-add of the gated rows into a zero array followed by the support's matrix.
-/
import proofs.«414678_j84086869721473_2_alg».proof.Proof.Spec
import proofs.«414678_j84086869721473_2_alg».proof.Proof.Gen.ReferenceIdeal.Read
import proofs.«414678_j84086869721473_2_alg».proof.Proof.LibScatterRows2
import proofs.«414678_j84086869721473_2_alg».proof.Proof.RefGate
import proofs.«414678_j84086869721473_2_alg».proof.Proof.RefElem

noncomputable section

open scoped BigOperators
open Idealize.ShloMosaic Idealize.ShloMosaic.ValueIdx Idealize.ShloMosaic.StableHlo
open Cert.ReferenceIdeal Cert.ReferenceIdeal.Gen

namespace Cert.ReferenceIdeal.RefValue

/-! ## The destination table and the segment sum -/

/-- Row 1 of the edge table, flattened: the destination of edge e. -/
theorem dst_read (x1 : (⟨S2x800000, .i32⟩ : BufTy).Contents (Elt Ideal)) (e : Fin 800000) :
    (Read.val_main_v13 (F := Ideal) x1 (ix1 e)).toInt = Cert.Spec.dstOf x1 e := by
  have h : Read.idx_main_v12 (Read.idx_main_v13 (ix1 e)) = ix2 (1 : Fin 2) e :=
    funext fun a => Fin.ext (by
      match a with
      | ⟨0, _⟩ => rfl
      | ⟨1, _⟩ => show e.val % 800000 = e.val; omega)
  rw [Read.val_main_v13_apply, Read.val_main_v12_apply, h]
  rfl

/-- A scatter-add of update rows into a zero array, at one element: the sum of the updates in that column over the
    rows whose start index is the element's row. -/
theorem seg_of_scatter (z : (⟨S50000x128, .f32⟩ : BufTy).Contents (Elt Ideal)) (hz : ∀ i, z i = (0 : EReal))
    (idx : (⟨S800000x1, .i32⟩ : BufTy).Contents (Elt Ideal)) (upd : (⟨S800000x128, .f32⟩ : BufTy).Contents (Elt Ideal))
    (dst : Fin 800000 → Int) (hd : ∀ e : Fin 800000, (idx (ix2 e (0 : Fin 1))).toInt = dst e)
    (u : Fin 800000 → EReal) (q : Fin 128) (hu : ∀ e : Fin 800000, upd (ix2 e q) = u e) (n : Fin 50000) :
    Host.scatterAdd (F := Ideal) (φ := .f32) scatter_S50000x128_S800000x1_S800000x128_1_0_0_1 z idx upd (ix2 n q)
      = Cert.Spec.seg dst u n := by
  unfold Host.scatterAdd
  rw [Ideal.hostScatterAdd_def,
    Cert.LibScatterRows2.hostScatterAdd_rows2 scatter_S50000x128_S800000x1_S800000x128_1_0_0_1 rfl rfl rfl rfl z idx upd n q,
    hz, zero_add]
  unfold Cert.Spec.seg
  refine Finset.sum_congr rfl fun e _ => ?_
  rw [hd e, hu e]

/-! ## One support: gated rows summed into their destination, then through the support's matrix -/

/-- Support k of the support form at (n, o): Σ_j (Σ_{e → n} g(e,k) · xs(e,j)) · Wk(k,j,o). -/
def supTerm (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (k : Fin 8) (n : Fin 50000) (o : Fin 128) : EReal :=
  ∑ j : Fin 128, Cert.Spec.seg (Cert.Spec.dstOf x1)
    (fun e => Cert.Spec.gateCat x2 x3 x4 x5 x6 e k * Read.val_main_v20 (F := Ideal) x0 x1 (ix2 e j)) n * x7 (ix3 k j o)

/-- The product of a 50000 × 128 array with a 128 × 128 matrix at (n, o): Σ_j A(n,j) · B(j,o). -/
theorem dot128_apply (A : (⟨S50000x128, .f32⟩ : BufTy).Contents (Elt Ideal)) (B : (⟨S128x128, .f32⟩ : BufTy).Contents (Elt Ideal))
    (n : Fin 50000) (o : Fin 128) :
    Host.dotGeneral (F := Ideal) (φ₁ := .f32) (φ₂ := .f32) dot_S50000x128_S128x128_S50000x128_1_0_0_1_n_n none A B (ix2 n o)
      = ∑ j : Fin 128, A (ix2 n j) * B (ix2 j o) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun j _ => ?_
  have hj := ValueIdx.contrEquiv1_symm_val dot_S50000x128_S128x128_S50000x128_1_0_0_1_n_n 128 rfl rfl j
  have el : dot_S50000x128_S128x128_S50000x128_1_0_0_1_n_n.lhsIdx (ix2 n o)
      ((ValueIdx.contrEquiv1 dot_S50000x128_S128x128_S50000x128_1_0_0_1_n_n 128 rfl rfl).symm j) = ix2 n j :=
    funext fun a => Fin.ext (by
      match a with
      | ⟨0, _⟩ => exact Read.lhs_main_v30_0 _ _
      | ⟨1, _⟩ => exact (Read.lhs_main_v30_1 _ _).trans hj)
  have er : dot_S50000x128_S128x128_S50000x128_1_0_0_1_n_n.rhsIdx (ix2 n o)
      ((ValueIdx.contrEquiv1 dot_S50000x128_S128x128_S50000x128_1_0_0_1_n_n 128 rfl rfl).symm j) = ix2 j o :=
    funext fun a => Fin.ext (by
      match a with
      | ⟨0, _⟩ => exact (Read.rhs_main_v30_0 _ _).trans hj
      | ⟨1, _⟩ => exact Read.rhs_main_v30_1 _ _)
  rw [el, er]

/-- One support from its four operands: a zero array, the destination table, the gated rows and the support's
    matrix. -/
theorem support_of (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (k : Fin 8) (z : (⟨S50000x128, .f32⟩ : BufTy).Contents (Elt Ideal)) (idx : (⟨S800000x1, .i32⟩ : BufTy).Contents (Elt Ideal))
    (upd : (⟨S800000x128, .f32⟩ : BufTy).Contents (Elt Ideal)) (W : (⟨S128x128, .f32⟩ : BufTy).Contents (Elt Ideal))
    (hz : ∀ i, z i = (0 : EReal))
    (hd : ∀ e : Fin 800000, idx (ix2 e (0 : Fin 1)) = Read.val_main_v13 (F := Ideal) x1 (ix1 e))
    (hu : ∀ (e : Fin 800000) (j : Fin 128), upd (ix2 e j)
      = Read.val_main_v9 (F := Ideal) x2 x3 x4 x5 x6 (ix2 e k) * Read.val_main_v20 (F := Ideal) x0 x1 (ix2 e j))
    (hW : ∀ j o : Fin 128, W (ix2 j o) = x7 (ix3 k j o)) (n : Fin 50000) (o : Fin 128) :
    Host.dotGeneral (F := Ideal) (φ₁ := .f32) (φ₂ := .f32) dot_S50000x128_S128x128_S50000x128_1_0_0_1_n_n none
        (Host.scatterAdd (F := Ideal) (φ := .f32) scatter_S50000x128_S800000x1_S800000x128_1_0_0_1 z idx upd) W (ix2 n o)
      = supTerm x0 x1 x2 x3 x4 x5 x6 x7 k n o := by
  rw [dot128_apply]
  unfold supTerm
  refine Finset.sum_congr rfl fun j _ => ?_
  rw [hW j o, seg_of_scatter z hz idx upd (Cert.Spec.dstOf x1) (fun e => by rw [hd e, dst_read])
    (fun e => Cert.Spec.gateCat x2 x3 x4 x5 x6 e k * Read.val_main_v20 (F := Ideal) x0 x1 (ix2 e j)) j
    (fun e => by rw [hu e j, gate_apply]) n]

/-- The row-major split of j · 128 + o: the quotient. -/
theorem split_row (j o : Fin 128) : (j.val * 128 + o.val) / 128 % 128 = j.val := by omega
/-- The row-major split of j · 128 + o: the remainder. -/
theorem split_col (j o : Fin 128) : (j.val * 128 + o.val) % 128 = o.val := by omega

/-- Support 0. -/
theorem sup0_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v30 (F := Ideal) x0 x1 x2 x3 x4 x5 x6 x7 (ix2 n o) = supTerm x0 x1 x2 x3 x4 x5 x6 x7 0 n o := by
  unfold Read.val_main_v30 Read.val_main_v27
  refine support_of x0 x1 x2 x3 x4 x5 x6 x7 0 _ _ _ _ (fun i => ?_) (fun e => ?_) (fun e j => ?_) (fun j o => ?_) n o
  · rw [Read.val_main_v25_apply, Read.val_main_cst_1_apply, zero_word]
  · rw [Read.val_main_v26_apply]
    exact congrArg _ (funext fun a => by match a with | ⟨0, _⟩ => rfl)
  · rw [Read.val_main_v24_apply, Read.val_main_v23_apply, Read.val_main_v22_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v29_apply, Read.val_main_v28_apply]
    exact congrArg _ (funext fun a => Fin.ext (by
      match a with
      | ⟨0, _⟩ => rfl
      | ⟨1, _⟩ => exact split_row j o
      | ⟨2, _⟩ => exact split_col j o))

/-- Support 1. -/
theorem sup1_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v40 (F := Ideal) x0 x1 x2 x3 x4 x5 x6 x7 (ix2 n o) = supTerm x0 x1 x2 x3 x4 x5 x6 x7 1 n o := by
  unfold Read.val_main_v40 Read.val_main_v37
  refine support_of x0 x1 x2 x3 x4 x5 x6 x7 1 _ _ _ _ (fun i => ?_) (fun e => ?_) (fun e j => ?_) (fun j o => ?_) n o
  · rw [Read.val_main_v35_apply, Read.val_main_cst_2_apply, zero_word]
  · rw [Read.val_main_v36_apply]
    exact congrArg _ (funext fun a => by match a with | ⟨0, _⟩ => rfl)
  · rw [Read.val_main_v34_apply, Read.val_main_v33_apply, Read.val_main_v32_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v39_apply, Read.val_main_v38_apply]
    exact congrArg _ (funext fun a => Fin.ext (by
      match a with
      | ⟨0, _⟩ => rfl
      | ⟨1, _⟩ => exact split_row j o
      | ⟨2, _⟩ => exact split_col j o))

/-- Support 2. -/
theorem sup2_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v50 (F := Ideal) x0 x1 x2 x3 x4 x5 x6 x7 (ix2 n o) = supTerm x0 x1 x2 x3 x4 x5 x6 x7 2 n o := by
  unfold Read.val_main_v50 Read.val_main_v47
  refine support_of x0 x1 x2 x3 x4 x5 x6 x7 2 _ _ _ _ (fun i => ?_) (fun e => ?_) (fun e j => ?_) (fun j o => ?_) n o
  · rw [Read.val_main_v45_apply, Read.val_main_cst_3_apply, zero_word]
  · rw [Read.val_main_v46_apply]
    exact congrArg _ (funext fun a => by match a with | ⟨0, _⟩ => rfl)
  · rw [Read.val_main_v44_apply, Read.val_main_v43_apply, Read.val_main_v42_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v49_apply, Read.val_main_v48_apply]
    exact congrArg _ (funext fun a => Fin.ext (by
      match a with
      | ⟨0, _⟩ => rfl
      | ⟨1, _⟩ => exact split_row j o
      | ⟨2, _⟩ => exact split_col j o))

/-- Support 3. -/
theorem sup3_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v60 (F := Ideal) x0 x1 x2 x3 x4 x5 x6 x7 (ix2 n o) = supTerm x0 x1 x2 x3 x4 x5 x6 x7 3 n o := by
  unfold Read.val_main_v60 Read.val_main_v57
  refine support_of x0 x1 x2 x3 x4 x5 x6 x7 3 _ _ _ _ (fun i => ?_) (fun e => ?_) (fun e j => ?_) (fun j o => ?_) n o
  · rw [Read.val_main_v55_apply, Read.val_main_cst_4_apply, zero_word]
  · rw [Read.val_main_v56_apply]
    exact congrArg _ (funext fun a => by match a with | ⟨0, _⟩ => rfl)
  · rw [Read.val_main_v54_apply, Read.val_main_v53_apply, Read.val_main_v52_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v59_apply, Read.val_main_v58_apply]
    exact congrArg _ (funext fun a => Fin.ext (by
      match a with
      | ⟨0, _⟩ => rfl
      | ⟨1, _⟩ => exact split_row j o
      | ⟨2, _⟩ => exact split_col j o))

/-- Support 4. -/
theorem sup4_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v70 (F := Ideal) x0 x1 x2 x3 x4 x5 x6 x7 (ix2 n o) = supTerm x0 x1 x2 x3 x4 x5 x6 x7 4 n o := by
  unfold Read.val_main_v70 Read.val_main_v67
  refine support_of x0 x1 x2 x3 x4 x5 x6 x7 4 _ _ _ _ (fun i => ?_) (fun e => ?_) (fun e j => ?_) (fun j o => ?_) n o
  · rw [Read.val_main_v65_apply, Read.val_main_cst_5_apply, zero_word]
  · rw [Read.val_main_v66_apply]
    exact congrArg _ (funext fun a => by match a with | ⟨0, _⟩ => rfl)
  · rw [Read.val_main_v64_apply, Read.val_main_v63_apply, Read.val_main_v62_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v69_apply, Read.val_main_v68_apply]
    exact congrArg _ (funext fun a => Fin.ext (by
      match a with
      | ⟨0, _⟩ => rfl
      | ⟨1, _⟩ => exact split_row j o
      | ⟨2, _⟩ => exact split_col j o))

/-- Support 5. -/
theorem sup5_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v80 (F := Ideal) x0 x1 x2 x3 x4 x5 x6 x7 (ix2 n o) = supTerm x0 x1 x2 x3 x4 x5 x6 x7 5 n o := by
  unfold Read.val_main_v80 Read.val_main_v77
  refine support_of x0 x1 x2 x3 x4 x5 x6 x7 5 _ _ _ _ (fun i => ?_) (fun e => ?_) (fun e j => ?_) (fun j o => ?_) n o
  · rw [Read.val_main_v75_apply, Read.val_main_cst_6_apply, zero_word]
  · rw [Read.val_main_v76_apply]
    exact congrArg _ (funext fun a => by match a with | ⟨0, _⟩ => rfl)
  · rw [Read.val_main_v74_apply, Read.val_main_v73_apply, Read.val_main_v72_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v79_apply, Read.val_main_v78_apply]
    exact congrArg _ (funext fun a => Fin.ext (by
      match a with
      | ⟨0, _⟩ => rfl
      | ⟨1, _⟩ => exact split_row j o
      | ⟨2, _⟩ => exact split_col j o))

/-- Support 6. -/
theorem sup6_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v90 (F := Ideal) x0 x1 x2 x3 x4 x5 x6 x7 (ix2 n o) = supTerm x0 x1 x2 x3 x4 x5 x6 x7 6 n o := by
  unfold Read.val_main_v90 Read.val_main_v87
  refine support_of x0 x1 x2 x3 x4 x5 x6 x7 6 _ _ _ _ (fun i => ?_) (fun e => ?_) (fun e j => ?_) (fun j o => ?_) n o
  · rw [Read.val_main_v85_apply, Read.val_main_cst_7_apply, zero_word]
  · rw [Read.val_main_v86_apply]
    exact congrArg _ (funext fun a => by match a with | ⟨0, _⟩ => rfl)
  · rw [Read.val_main_v84_apply, Read.val_main_v83_apply, Read.val_main_v82_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v89_apply, Read.val_main_v88_apply]
    exact congrArg _ (funext fun a => Fin.ext (by
      match a with
      | ⟨0, _⟩ => rfl
      | ⟨1, _⟩ => exact split_row j o
      | ⟨2, _⟩ => exact split_col j o))

/-- Support 7. -/
theorem sup7_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v100 (F := Ideal) x0 x1 x2 x3 x4 x5 x6 x7 (ix2 n o) = supTerm x0 x1 x2 x3 x4 x5 x6 x7 7 n o := by
  unfold Read.val_main_v100 Read.val_main_v97
  refine support_of x0 x1 x2 x3 x4 x5 x6 x7 7 _ _ _ _ (fun i => ?_) (fun e => ?_) (fun e j => ?_) (fun j o => ?_) n o
  · rw [Read.val_main_v95_apply, Read.val_main_cst_8_apply, zero_word]
  · rw [Read.val_main_v96_apply]
    exact congrArg _ (funext fun a => by match a with | ⟨0, _⟩ => rfl)
  · rw [Read.val_main_v94_apply, Read.val_main_v93_apply, Read.val_main_v92_apply, Ideal.mulf_def]
    exact congrArg (fun t => Read.val_main_v9 (F := Ideal) x2 x3 x4 x5 x6 t * _)
      (funext fun a => by match a with | ⟨0, _⟩ => rfl | ⟨1, _⟩ => rfl)
  · rw [Read.val_main_v99_apply, Read.val_main_v98_apply]
    exact congrArg _ (funext fun a => Fin.ext (by
      match a with
      | ⟨0, _⟩ => rfl
      | ⟨1, _⟩ => exact split_row j o
      | ⟨2, _⟩ => exact split_col j o))

/-! ## The eight supports added up, the bias, the rectifier -/

/-- The accumulated output is the support form. -/
theorem out_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (n : Fin 50000) (o : Fin 128) :
    Read.val_main_v101 (F := Ideal) x0 x1 x2 x3 x4 x5 x6 x7 (ix2 n o)
      = Cert.Spec.aggSup (Cert.Spec.dstOf x1) (Cert.Spec.gateCat x2 x3 x4 x5 x6) (Read.val_main_v20 (F := Ideal) x0 x1) x7 n o := by
  rw [Read.val_main_v101_apply, Read.val_main_v91_apply, Read.val_main_v81_apply, Read.val_main_v71_apply,
    Read.val_main_v61_apply, Read.val_main_v51_apply, Read.val_main_v41_apply, Read.val_main_v31_apply,
    Read.val_main_v21_apply, Read.val_main_cst_apply, sup0_apply, sup1_apply, sup2_apply, sup3_apply, sup4_apply,
    sup5_apply, sup6_apply, sup7_apply]
  simp only [Ideal.addf_def, zero_word, zero_add]
  unfold Cert.Spec.aggSup
  rw [Fin.sum_univ_eight]
  rfl

/-- The spectral half: max(out + bk, 0). -/
theorem spectral_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (x8 : (⟨S128, .f32⟩ : BufTy).Contents (Elt Ideal)) (n : Fin 50000) (o : Fin 128) :
    Read.val_main_v105 (F := Ideal) x0 x1 x2 x3 x4 x5 x6 x7 x8 (ix2 n o)
      = max (Cert.Spec.aggSup (Cert.Spec.dstOf x1) (Cert.Spec.gateCat x2 x3 x4 x5 x6) (Read.val_main_v20 (F := Ideal) x0 x1) x7 n o
          + Cert.Spec.vec x8 o) 0 := by
  have eb : Read.idx_main_v102 (Read.idx_main_v103 (ix2 n o)) = ix1 o :=
    funext fun a => by match a with | ⟨0, _⟩ => rfl
  rw [Read.val_main_v105_apply, Read.val_main_v104_apply, out_apply, Read.val_main_v103_apply, Read.val_main_v102_apply, eb,
    Read.val_main_call2_v0_apply, Read.val_main_call2_cst_apply, Ideal.maximumf_def, Ideal.addf_def, zero_word]
  rfl

/-! ## The node output: the two halves joined -/

/-- The reference's result, index by index: the node output of the support form. -/
theorem result_apply (x0 : (⟨S50000x128, .f32⟩ : BufTy).Contents (Elt Ideal)) (x1 : (⟨S2x800000, .i32⟩ : BufTy).Contents (Elt Ideal))
    (x2 : (⟨S800000x32, .f32⟩ : BufTy).Contents (Elt Ideal)) (x3 x4 x5 : (⟨S32x64, .f32⟩ : BufTy).Contents (Elt Ideal))
    (x6 : (⟨S128x8, .f32⟩ : BufTy).Contents (Elt Ideal)) (x7 : (⟨S8x128x128, .f32⟩ : BufTy).Contents (Elt Ideal))
    (x8 : (⟨S128, .f32⟩ : BufTy).Contents (Elt Ideal)) (x9 : (⟨S128x64, .f32⟩ : BufTy).Contents (Elt Ideal))
    (x10 : (⟨S64, .f32⟩ : BufTy).Contents (Elt Ideal)) (x11 : (⟨S128x64, .f32⟩ : BufTy).Contents (Elt Ideal))
    (x12 : (⟨S64, .f32⟩ : BufTy).Contents (Elt Ideal)) (i : S50000x192.Idx) :
    Read.val_main_v117 x0 x1 x2 x3 x4 x5 x6 x7 x8 x9 x10 x11 x12 i
      = Cert.Spec.nodeOut (Cert.Spec.aggSup (Cert.Spec.dstOf x1) (Cert.Spec.gateCat x2 x3 x4 x5 x6) (Read.val_main_v20 x0 x1) x7)
          (Cert.Spec.vec x8) x0 x9 x11 (Cert.Spec.vec x10) (Cert.Spec.vec x12) (i 0) (i 1) := by
  obtain ⟨n, c, rfl⟩ : ∃ (n : Fin 50000) (c : Fin 192), i = ix2 n c := ⟨i 0, i 1, eq_ix2 i⟩
  show Read.val_main_v117 x0 x1 x2 x3 x4 x5 x6 x7 x8 x9 x10 x11 x12 (ix2 n c)
      = Cert.Spec.nodeOut (Cert.Spec.aggSup (Cert.Spec.dstOf x1) (Cert.Spec.gateCat x2 x3 x4 x5 x6) (Read.val_main_v20 x0 x1) x7)
          (Cert.Spec.vec x8) x0 x9 x11 (Cert.Spec.vec x10) (Cert.Spec.vec x12) n c
  unfold Read.val_main_v117 Cert.Spec.nodeOut
  by_cases h : c.val < 128
  · rw [dif_pos h, ← spectral_apply]
    generalize Read.val_main_v105 (F := Ideal) x0 x1 x2 x3 x4 x5 x6 x7 x8 = y1
    generalize Read.val_main_v116 (F := Ideal) x0 x9 x10 x11 x12 = y2
    exact concatenate_pair_apply_left (1 : Fin 2) y1 y2 concatenates_S50000x128_S50000x64_S50000x192_d1 (ix2 n c) rfl
      (ix2 n ⟨c.val, h⟩) (fun b => by match b with | ⟨0, _⟩ => rfl | ⟨1, _⟩ => rfl)
  · rw [dif_neg h, ← elem_apply]
    generalize Read.val_main_v105 (F := Ideal) x0 x1 x2 x3 x4 x5 x6 x7 x8 = y1
    generalize Read.val_main_v116 (F := Ideal) x0 x9 x10 x11 x12 = y2
    exact concatenate_pair_apply_right (1 : Fin 2) y1 y2 concatenates_S50000x128_S50000x64_S50000x192_d1 (ix2 n c) rfl rfl
      (ix2 n ⟨c.val - 128, by have := c.isLt; omega⟩)
      (fun b hb => by match b with | ⟨0, _⟩ => rfl | ⟨1, _⟩ => exact absurd rfl hb)
      (by show (c.val - 128) + 128 = c.val; omega)

end Cert.ReferenceIdeal.RefValue

end
-- ==== Proof.Domain.lean ====
/-
  What the precondition says, decoded.

  The precondition is a conjunction of thirteen all-quantified statements: for each of the twelve real-valued
  inputs, |x| < +∞ at every entry x; and for the row of source indices s = edge_index[0, ·], 0 ≤ s and s < 50000 at
  every edge, as signed integers. On the extended reals |x| = max(x, -x), and max(x, -x) < ⊤ holds exactly when x is
  neither ⊤ nor ⊥: every entry is a real number. The row of source indices is the first row of the [2 × 800000]
  table, read through a slice [0:1, 0:800000] and a reshape to [800000]: entry e of the reshaped row is entry (0, e)
  of the table.
-/
import proofs.«414678_j84086869721473_2_alg».proof.Pre_finite_inputs
import proofs.«414678_j84086869721473_2_alg».proof.Proof.Gen.Pre_finite_inputs
import proofs.«414678_j84086869721473_2_alg».proof.Proof.Spec
import Idealize.ShloMosaic.Lib.ReduceAll
import Idealize.ShloMosaic.Lib.Pipeline.Value
import Idealize.ShloMosaic.Lib.ValueIdx

noncomputable section

namespace Cert.Domain

open Idealize.ShloMosaic Idealize.ShloMosaic.ValueIdx
open Cert.Pre_finite_inputs

/-- The rank-0 shape has one index. -/
instance subsingleton_scalar_idx : Subsingleton S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- On the extended reals, max(x, -x) < +∞ says that x is a real number. -/
theorem real_of_abs_lt (x : EReal) (h : Ideal.cmp .olt (max x (-x)) (Ideal.ofBits .f32 0x7F800000#32) = 1#1) :
    x ≠ ⊤ ∧ x ≠ ⊥ := by
  rw [inf_bits] at h
  induction x using EReal.rec with
  | bot => simp [Ideal.cmp] at h
  | coe r => exact ⟨EReal.coe_ne_top r, EReal.coe_ne_bot r⟩
  | top => simp [Ideal.cmp] at h

/-- One conjunct for a real-valued input: all entries satisfy |x| < +∞, hence every entry is a real number. -/
theorem all_real {s : Shape} {axes : List (Fin s.rank)} (hb : S_.BroadcastsInDim s (![] : Fin 0 → Fin s.rank))
    (hr : s.ReducesTo axes S_) (hn : 0 < S_.numel) (a : FVec Ideal s .f32)
    (h : Host.reduce IntOp.andi (cmpf .olt (Host.absf a) (broadcastInDim s ![] hb (constant S_ .f32 0x7F800000#32)))
        (constantI S_ 1 1#1) hr hn ix0 = 1#1) (i : s.Idx) : a i ≠ ⊤ ∧ a i ≠ ⊥ :=
  real_of_abs_lt (a i) (Host.reduce_andi_all _ _ hr hn ix0 h i)

/-- Entry e of the reshaped first row of the [2 × 800000] table is entry (0, e) of the table. -/
theorem first_row_apply (hs : S2x800000.Slices ![0, 0] S1x800000) (hc : S1x800000.ShapeCasts S800000)
    (t : IVec S2x800000 32) (e : Fin 800000) :
    shapeCast S800000 (extractStridedSlice S1x800000 ![0, 0] t hs) hc (ix1 e) = t (ix2 (0 : Fin 2) e) := by
  refine (shapeCast_apply _ hc (ix1 e) (ix2 (0 : Fin 1) e) ?_).trans ?_
  · rw [Shape.rowMajor_val_two, Shape.rowMajor_val_one]
    simp
  · refine extractStridedSlice_apply _ t hs _ (ix2 (0 : Fin 2) e) ?_
    intro a
    fin_cases a <;> simp

/-- The integer conjunct: every source index lies in [0, 50000). -/
theorem src_range_of (hs : S2x800000.Slices ![0, 0] S1x800000) (hc : S1x800000.ShapeCasts S800000)
    (hb : S_.BroadcastsInDim S800000 (![] : Fin 0 → Fin S800000.rank)) (hr : S800000.ReducesTo [0] S_) (hn : 0 < S_.numel)
    (t : IVec S2x800000 32)
    (h : Host.reduce IntOp.andi
        (andi (cmpi .sge (shapeCast S800000 (extractStridedSlice S1x800000 ![0, 0] t hs) hc)
                (broadcastInDim S800000 ![] hb (constantI S_ 32 0#32)))
              (cmpi .slt (shapeCast S800000 (extractStridedSlice S1x800000 ![0, 0] t hs) hc)
                (broadcastInDim S800000 ![] hb (constantI S_ 32 50000#32))))
        (constantI S_ 1 1#1) hr hn ix0 = 1#1) (e : Fin 800000) :
    0 ≤ (t (ix2 (0 : Fin 2) e)).toInt ∧ (t (ix2 (0 : Fin 2) e)).toInt < 50000 := by
  have h1 := Host.reduce_andi_all _ _ hr hn ix0 h (ix1 e)
  obtain ⟨hge, hlt⟩ := IntOp.andi_eq_one.1 h1
  have hge' : IntOp.cmpi .sge (shapeCast S800000 (extractStridedSlice S1x800000 ![0, 0] t hs) hc (ix1 e)) 0#32 = 1#1 := hge
  have hlt' : IntOp.cmpi .slt (shapeCast S800000 (extractStridedSlice S1x800000 ![0, 0] t hs) hc (ix1 e)) 50000#32 = 1#1 := hlt
  rw [first_row_apply hs hc t e] at hge' hlt'
  have z : (0#32 : BitVec 32).toInt = 0 := by decide
  have n : (50000#32 : BitVec 32).toInt = 50000 := by decide
  have g := IntOp.cmpi_sge.1 hge'
  have l := IntOp.cmpi_slt.1 hlt'
  rw [z] at g
  rw [n] at l
  exact ⟨g, l⟩

/-- THE PRECONDITION DECODED: every entry of the twelve real-valued inputs is a real number, and every source index
    lies in [0, 50000). -/
theorem finite_of_pre [Facts] (a0 : FVec Ideal S50000x128 .f32) (a1 : IVec S2x800000 32) (a2 : FVec Ideal S800000x32 .f32)
    (a3 a4 a5 : FVec Ideal S32x64 .f32) (a6 : FVec Ideal S128x8 .f32) (a7 : FVec Ideal S8x128x128 .f32)
    (a8 : FVec Ideal S128 .f32) (a9 : FVec Ideal S128x64 .f32) (a10 : FVec Ideal S64 .f32)
    (a11 : FVec Ideal S128x64 .f32) (a12 : FVec Ideal S64 .f32)
    (h : Cert.Pre_finite_inputs.fn (F := Ideal) a0 a1 a2 a3 a4 a5 a6 a7 a8 a9 a10 a11 a12 = fun _ => 1#1) :
    (∀ i, a0 i ≠ ⊤ ∧ a0 i ≠ ⊥) ∧ (∀ i, a2 i ≠ ⊤ ∧ a2 i ≠ ⊥) ∧ (∀ i, a3 i ≠ ⊤ ∧ a3 i ≠ ⊥) ∧ (∀ i, a4 i ≠ ⊤ ∧ a4 i ≠ ⊥)
      ∧ (∀ i, a5 i ≠ ⊤ ∧ a5 i ≠ ⊥) ∧ (∀ i, a6 i ≠ ⊤ ∧ a6 i ≠ ⊥) ∧ (∀ i, a7 i ≠ ⊤ ∧ a7 i ≠ ⊥) ∧ (∀ i, a8 i ≠ ⊤ ∧ a8 i ≠ ⊥)
      ∧ (∀ i, a9 i ≠ ⊤ ∧ a9 i ≠ ⊥) ∧ (∀ i, a10 i ≠ ⊤ ∧ a10 i ≠ ⊥) ∧ (∀ i, a11 i ≠ ⊤ ∧ a11 i ≠ ⊥) ∧ (∀ i, a12 i ≠ ⊤ ∧ a12 i ≠ ⊥)
      ∧ (∀ e : Fin 800000, 0 ≤ (a1 (ix2 (0 : Fin 2) e)).toInt ∧ (a1 (ix2 (0 : Fin 2) e)).toInt < 50000) := by
  have c := congrFun h ix0
  dsimp only [fn, fn_part1, fn_part2, fn_part3, fn_part4] at c
  obtain ⟨c, h1⟩ := IntOp.andi_eq_one.1 c
  obtain ⟨c, h12⟩ := IntOp.andi_eq_one.1 c
  obtain ⟨c, h11⟩ := IntOp.andi_eq_one.1 c
  obtain ⟨c, h10⟩ := IntOp.andi_eq_one.1 c
  obtain ⟨c, h9⟩ := IntOp.andi_eq_one.1 c
  obtain ⟨c, h8⟩ := IntOp.andi_eq_one.1 c
  obtain ⟨c, h7⟩ := IntOp.andi_eq_one.1 c
  obtain ⟨c, h6⟩ := IntOp.andi_eq_one.1 c
  obtain ⟨c, h5⟩ := IntOp.andi_eq_one.1 c
  obtain ⟨c, h4⟩ := IntOp.andi_eq_one.1 c
  obtain ⟨c, h3⟩ := IntOp.andi_eq_one.1 c
  obtain ⟨h0, h2⟩ := IntOp.andi_eq_one.1 c
  exact ⟨all_real _ _ _ a0 h0, all_real _ _ _ a2 h2, all_real _ _ _ a3 h3, all_real _ _ _ a4 h4, all_real _ _ _ a5 h5,
    all_real _ _ _ a6 h6, all_real _ _ _ a7 h7, all_real _ _ _ a8 h8, all_real _ _ _ a9 h9, all_real _ _ _ a10 h10,
    all_real _ _ _ a11 h11, all_real _ _ _ a12 h12, src_range_of _ _ _ _ _ a1 h1⟩

end Cert.Domain

end
-- ==== Proof.TakeEq.lean ====
/-
  The gathered node rows of the two programs are one matrix when every source index is a row of the node table.

  Both programs wrap a negative source index by the row count and gather rows of the node table at the wrapped
  index (brought inside the table by the gather itself). The kernel program moreover replaces a row whose wrapped
  index is outside 0..49999 by a fill value. With 0 ≤ src(e) < 50000 for every edge the wrap does nothing, the range
  test holds on every edge, and no row is replaced. Every gathered entry is an entry of the node table.
-/
import proofs.«414678_j84086869721473_2_alg».proof.Proof.HostK
import proofs.«414678_j84086869721473_2_alg».proof.Proof.HostK4
import proofs.«414678_j84086869721473_2_alg».proof.Proof.Gen.ReferenceIdeal.Read
import proofs.«414678_j84086869721473_2_alg».proof.Proof.DomainMask
import proofs.«414678_j84086869721473_2_alg».proof.Proof.Algebra

set_option maxRecDepth 16384

noncomputable section

namespace Cert.KernelIdeal.TakeEq

open Cert.KernelIdeal Cert.KernelIdeal.Gen
open Idealize.ShloMosaic Idealize.ShloMosaic.TcCoe Idealize.ShloMosaic.ValueIdx

/-- The reference's table of start indices is the kernel program's: the same operations of the edge table. -/
theorem startIdx_eq (ei : IVec S2x800000 32) :
    Cert.ReferenceIdeal.Read.val_main_v19 (F := Ideal) ei = HostK.wrapIdx (HostK.srcVec ei) := rfl

/-- With every source index a row of the node table, the kernel program's gathered rows are the reference's. -/
theorem xsK_eq (x : FVec Ideal S50000x128 .f32) (ei : IVec S2x800000 32)
    (hsrc : ∀ e : Fin 800000, 0 ≤ (ei (ix2 (0 : Fin 2) e)).toInt ∧ (ei (ix2 (0 : Fin 2) e)).toInt < 50000) :
    HostK.xsK x ei = Cert.ReferenceIdeal.Read.val_main_v20 (F := Ideal) x ei := by
  have hwrap : HostK.wrapIdx (HostK.srcVec ei)
      = broadcastInDim S800000x1 ![0] bcast_S800000_S800000x1_0 (HostK.srcVec ei) := by
    unfold HostK.wrapIdx
    rw [Cert.Domain.wrap_id bcast_S_S800000 (HostK.srcVec ei)
      (fun e => by rw [HostK4.srcVec_apply]; exact (hsrc e).1)]
  have hmask : HostK.takeMask (HostK.wrapIdx (HostK.srcVec ei)) = fun _ => 1#1 := by
    rw [hwrap]
    unfold HostK.takeMask
    exact Cert.Domain.mask_true bcast_S_S800000x1 bcast_S1_S1x1_1 bcast_S1x1_S800000x1_0_1
      reducesTo_S800000x1_S800000_d1 h_S_ bcast_S800000_S800000x128_0 _
      (fun e => by
        rw [Cert.Domain.bcast_col_apply, HostK4.srcVec_apply]
        have h := hsrc e
        omega)
  unfold HostK.xsK
  rw [hmask, Cert.Domain.select_all_one]
  rfl

/-- Every gathered entry is an entry of the node table: real when the table is. -/
theorem xsR_isFin (x : FVec Ideal S50000x128 .f32) (ei : IVec S2x800000 32) (hx : ∀ i, Cert.Spec.IsFin (x i))
    (i : S800000x128.Idx) : Cert.Spec.IsFin (Cert.ReferenceIdeal.Read.val_main_v20 (F := Ideal) x ei i) := by
  unfold Cert.ReferenceIdeal.Read.val_main_v20 Host.gather
  exact hx _

end Cert.KernelIdeal.TakeEq

end
-- ==== Proof.lean ====
/-
  A graph layer with learned edge gates: per edge e a gate vector g(e) ∈ ℝ^8 computed from the edge's attributes,
  a gathered node row xs(e) = x(src e), and per node n the sum over the edges into n.

  The kernel program forms per edge the message  Σ_k g(e,k) · (xs(e) · Wk(k))  and sums messages into their
  destinations; the reference sums, per support k, the gated rows  g(e,k) · xs(e)  into their destinations and then
  multiplies by Wk(k). On real inputs these are one sum:  Σ_{e → n} Σ_k g(e,k) Σ_j xs(e,j) Wk(k,j,o)
  = Σ_k Σ_j (Σ_{e → n} g(e,k) xs(e,j)) Wk(k,j,o)  (distributivity, which fails at the infinities: the finiteness of
  the inputs is used). The gate over the whole 128 × 8 mixing matrix is the gate over its two 64-row halves. The
  kernel program fills a gathered row whose source index is outside the node table, where the reference's gather
  clamps: with every source index a row of the table the two gathers are one matrix. Both programs then apply
  max(H + bk, 0) beside tanh(x·W11 + b11) · tanh(x·W12 + b12).
-/
import proofs.«414678_j84086869721473_2_alg».proof.Defs
import proofs.«414678_j84086869721473_2_alg».proof.Proof.Gen.Kernel
import proofs.«414678_j84086869721473_2_alg».proof.Proof.Gen.Kernel.Skeleton
import proofs.«414678_j84086869721473_2_alg».proof.Proof.Gen.Kernel.Launch
import proofs.«414678_j84086869721473_2_alg».proof.Proof.Gen.Kernel.Points
import proofs.«414678_j84086869721473_2_alg».proof.Proof.Gen.Kernel.Frame
import proofs.«414678_j84086869721473_2_alg».proof.Proof.Gen.KernelIdeal
import proofs.«414678_j84086869721473_2_alg».proof.Proof.Gen.KernelIdeal.Skeleton
import proofs.«414678_j84086869721473_2_alg».proof.Proof.Gen.KernelIdeal.Launch
import proofs.«414678_j84086869721473_2_alg».proof.Proof.Gen.KernelIdeal.Points
import proofs.«414678_j84086869721473_2_alg».proof.Proof.Gen.KernelIdeal.Frame
import proofs.«414678_j84086869721473_2_alg».proof.Proof.Gen.ReferenceIdeal
import proofs.«414678_j84086869721473_2_alg».proof.Proof.Gen.ReferenceIdeal.Run
import proofs.«414678_j84086869721473_2_alg».proof.Proof.Gen.ReferenceIdeal.Read
import proofs.«414678_j84086869721473_2_alg».proof.Proof.Gen.Pre_finite_inputs
import proofs.«414678_j84086869721473_2_alg».proof.Proof.KernelValue
import proofs.«414678_j84086869721473_2_alg».proof.Proof.RefValue
import proofs.«414678_j84086869721473_2_alg».proof.Proof.Domain
import proofs.«414678_j84086869721473_2_alg».proof.Proof.TakeEq
import proofs.«414678_j84086869721473_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, on finite inputs whose source indices are rows of the node table, the kernel program
    and the reference end with one result array: the node output over the aggregate, in its message form on the
    kernel side and its support form on the reference side, equal by distributivity. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v117_eq, e0, e1, e2, e3, e4, e5, e6, e7, e8, e9, e10, e11, e12]
  obtain ⟨f0, f2, f3, f4, f5, f6, f7, f8, f9, f10, f11, f12, hsrc⟩ :=
    Cert.Domain.finite_of_pre _ _ _ _ _ _ _ _ _ _ _ _ _ (hpre c)
  funext i
  rw [Cert.ReferenceIdeal.RefValue.result_apply]
  unfold Cert.KernelIdeal.HandValue.resK
  rw [Cert.KernelIdeal.TakeEq.xsK_eq _ _ hsrc]
  exact Cert.Spec.nodeOut_congr
    (Cert.Spec.aggMsg_gate_eq_aggSup_gateCat _ _ _ _ _ _ _ _ f2 f3 f6
      (Cert.KernelIdeal.TakeEq.xsR_isFin _ _ f0) f7).symm
    rfl rfl rfl rfl rfl rfl (i 0) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
